-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v66)) (v1 : (c : Dev Cert.KernelIdeal.nD) → Buf (Elt Ideal) ((c.tc : Thread Cert.KernelIdeal.nD Cert.KernelIdeal.τ).loc Cert.KernelIdeal.main_v68)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v66) = v0 c
          ∧ r.2.mem ((c.tc : Thread Cert.KernelIdeal.nD Cert.KernelIdeal.τ).loc Cert.KernelIdeal.main_v68) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v142) = v0 c
          ∧ r.2.mem ((c.tc : Thread Cert.ReferenceIdeal.nD Cert.ReferenceIdeal.τ).loc Cert.ReferenceIdeal.main_v144) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S3x256x256 : Shape := ⟨3, ![3, 256, 256]⟩
abbrev S16x1024 : Shape := ⟨2, ![16, 1024]⟩
abbrev S1024 : Shape := ⟨1, ![1024]⟩
abbrev S1024x1024 : Shape := ⟨2, ![1024, 1024]⟩
abbrev S1024x24 : Shape := ⟨2, ![1024, 24]⟩
abbrev S24 : Shape := ⟨1, ![24]⟩
abbrev S_ : Shape := ⟨0, ![]⟩

class Facts : Prop where
  bcast_S_S3x256x256 : S_.BroadcastsInDim S3x256x256 (![] : Fin 0 → Fin S3x256x256.rank)
  reducesTo_S3x256x256_S_d0_1_2 : S3x256x256.ReducesTo [0, 1, 2] S_
  h_S_ : 0 < S_.numel

variable [Facts]

def fn {F : FTy → Type} [FloatOps F] (main_arg0 : FVec F S3x256x256 .f32) (main_arg1 : IVec S16x1024 1) (main_arg2 : IVec S1024 32) (main_arg3 : IVec S1024x1024 1) (main_arg4 : IVec S1024 32) (main_arg5 : IVec S1024x24 1) (main_arg6 : IVec S24 32) : IVec S_ 1 :=
  let main_v0 : FVec F S3x256x256 .f32 := Host.absf main_arg0
  let main_cst : FVec F S_ .f32 := constant S_ .f32 0x7F800000#32
  let main_v1 : FVec F S3x256x256 .f32 := broadcastInDim S3x256x256 ![] bcast_S_S3x256x256 main_cst
  let main_v2 : IVec S3x256x256 1 := cmpf .olt main_v0 main_v1
  let main_c : IVec S_ 1 := constantI S_ 1 1#1
  let main_v3 : IVec S_ 1 := (fun x v => Host.reduce IntOp.andi x v reducesTo_S3x256x256_S_d0_1_2 h_S_) main_v2 main_c
  main_v3
-- ==== Kernel.lean ====
abbrev S3x256x256 : Shape := ⟨3, ![3, 256, 256]⟩
abbrev S16x1024 : Shape := ⟨2, ![16, 1024]⟩
abbrev S1024 : Shape := ⟨1, ![1024]⟩
abbrev S1024x1024 : Shape := ⟨2, ![1024, 1024]⟩
abbrev S1024x24 : Shape := ⟨2, ![1024, 24]⟩
abbrev S24 : Shape := ⟨1, ![24]⟩
abbrev S24x3 : Shape := ⟨2, ![24, 3]⟩
abbrev S256 : Shape := ⟨1, ![256]⟩
abbrev S256x1 : Shape := ⟨2, ![256, 1]⟩
abbrev S8 : Shape := ⟨1, ![8]⟩
abbrev S_ : Shape := ⟨0, ![]⟩
abbrev S1x8 : Shape := ⟨2, ![1, 8]⟩
abbrev S256x8 : Shape := ⟨2, ![256, 8]⟩
abbrev S256x1x8 : Shape := ⟨3, ![256, 1, 8]⟩
abbrev S256x256x8 : Shape := ⟨3, ![256, 256, 8]⟩
abbrev S1x256x8 : Shape := ⟨3, ![1, 256, 8]⟩
abbrev S256x256x16 : Shape := ⟨3, ![256, 256, 16]⟩
abbrev S65536x16 : Shape := ⟨2, ![65536, 16]⟩
abbrev S256x256x3 : Shape := ⟨3, ![256, 256, 3]⟩
abbrev S65536x3 : Shape := ⟨2, ![65536, 3]⟩
abbrev S1x1024 : Shape := ⟨2, ![1, 1024]⟩
abbrev S1x24 : Shape := ⟨2, ![1, 24]⟩
abbrev S512x16 : Shape := ⟨2, ![512, 16]⟩
abbrev S512x3 : Shape := ⟨2, ![512, 3]⟩
abbrev S512x1024 : Shape := ⟨2, ![512, 1024]⟩
abbrev S512 : Shape := ⟨1, ![512]⟩
abbrev S512x1 : Shape := ⟨2, ![512, 1]⟩
abbrev S512x24 : Shape := ⟨2, ![512, 24]⟩

abbrev nBuf : Space → Nat
  | .hbm => 89
  | .vmem => 18
  | .smem => 0
  | _ => 0

abbrev bufTy : (tb : Table) → Fin (tcTables nBuf tb) → BufTy
  | .hbm, ⟨0, _⟩ => ⟨S3x256x256, .f32⟩
  | .hbm, ⟨1, _⟩ => ⟨S16x1024, .i1⟩
  | .hbm, ⟨2, _⟩ => ⟨S1024, .i32⟩
  | .hbm, ⟨3, _⟩ => ⟨S1024x1024, .i1⟩
  | .hbm, ⟨4, _⟩ => ⟨S1024, .i32⟩
  | .hbm, ⟨5, _⟩ => ⟨S1024x24, .i1⟩
  | .hbm, ⟨6, _⟩ => ⟨S24, .i32⟩
  | .hbm, ⟨7, _⟩ => ⟨S24x3, .f32⟩
  | .hbm, ⟨8, _⟩ => ⟨S256, .i32⟩
  | .hbm, ⟨9, _⟩ => ⟨S256x1, .i32⟩
  | .hbm, ⟨10, _⟩ => ⟨S8, .i32⟩
  | .hbm, ⟨11, _⟩ => ⟨S_, .i32⟩
  | .hbm, ⟨12, _⟩ => ⟨S8, .i32⟩
  | .hbm, ⟨13, _⟩ => ⟨S8, .i32⟩
  | .hbm, ⟨14, _⟩ => ⟨S_, .i32⟩
  | .hbm, ⟨15, _⟩ => ⟨S8, .i32⟩
  | .hbm, ⟨16, _⟩ => ⟨S8, .i32⟩
  | .hbm, ⟨17, _⟩ => ⟨S1x8, .i32⟩
  | .hbm, ⟨18, _⟩ => ⟨S256x8, .i32⟩
  | .hbm, ⟨19, _⟩ => ⟨S256x8, .i32⟩
  | .hbm, ⟨20, _⟩ => ⟨S256x8, .i32⟩
  | .hbm, ⟨21, _⟩ => ⟨S_, .i32⟩
  | .hbm, ⟨22, _⟩ => ⟨S256x8, .i32⟩
  | .hbm, ⟨23, _⟩ => ⟨S256x8, .i32⟩
  | .hbm, ⟨24, _⟩ => ⟨S_, .i32⟩
  | .hbm, ⟨25, _⟩ => ⟨S256x8, .i32⟩
  | .hbm, ⟨26, _⟩ => ⟨S256x8, .i1⟩
  | .hbm, ⟨27, _⟩ => ⟨S256x8, .i1⟩
  | .hbm, ⟨28, _⟩ => ⟨S256, .i32⟩
  | .hbm, ⟨29, _⟩ => ⟨S256x1, .i32⟩
  | .hbm, ⟨30, _⟩ => ⟨S8, .i32⟩
  | .hbm, ⟨31, _⟩ => ⟨S_, .i32⟩
  | .hbm, ⟨32, _⟩ => ⟨S8, .i32⟩
  | .hbm, ⟨33, _⟩ => ⟨S8, .i32⟩
  | .hbm, ⟨34, _⟩ => ⟨S_, .i32⟩
  | .hbm, ⟨35, _⟩ => ⟨S8, .i32⟩
  | .hbm, ⟨36, _⟩ => ⟨S8, .i32⟩
  | .hbm, ⟨37, _⟩ => ⟨S1x8, .i32⟩
  | .hbm, ⟨38, _⟩ => ⟨S256x8, .i32⟩
  | .hbm, ⟨39, _⟩ => ⟨S256x8, .i32⟩
  | .hbm, ⟨40, _⟩ => ⟨S256x8, .i32⟩
  | .hbm, ⟨41, _⟩ => ⟨S_, .i32⟩
  | .hbm, ⟨42, _⟩ => ⟨S256x8, .i32⟩
  | .hbm, ⟨43, _⟩ => ⟨S256x8, .i32⟩
  | .hbm, ⟨44, _⟩ => ⟨S_, .i32⟩
  | .hbm, ⟨45, _⟩ => ⟨S256x8, .i32⟩
  | .hbm, ⟨46, _⟩ => ⟨S256x8, .i1⟩
  | .hbm, ⟨47, _⟩ => ⟨S256x8, .i1⟩
  | .hbm, ⟨48, _⟩ => ⟨S256x1x8, .i1⟩
  | .hbm, ⟨49, _⟩ => ⟨S256x256x8, .i1⟩
  | .hbm, ⟨50, _⟩ => ⟨S1x256x8, .i1⟩
  | .hbm, ⟨51, _⟩ => ⟨S256x256x8, .i1⟩
  | .hbm, ⟨52, _⟩ => ⟨S256x256x16, .i1⟩
  | .hbm, ⟨53, _⟩ => ⟨S65536x16, .i1⟩
  | .hbm, ⟨54, _⟩ => ⟨S65536x16, .f32⟩
  | .hbm, ⟨55, _⟩ => ⟨S65536x16, .bf16⟩
  | .hbm, ⟨56, _⟩ => ⟨S256x256x3, .f32⟩
  | .hbm, ⟨57, _⟩ => ⟨S65536x3, .f32⟩
  | .hbm, ⟨58, _⟩ => ⟨S16x1024, .f32⟩
  | .hbm, ⟨59, _⟩ => ⟨S16x1024, .bf16⟩
  | .hbm, ⟨60, _⟩ => ⟨S1024x1024, .f32⟩
  | .hbm, ⟨61, _⟩ => ⟨S1024x1024, .bf16⟩
  | .hbm, ⟨62, _⟩ => ⟨S1024x24, .f32⟩
  | .hbm, ⟨63, _⟩ => ⟨S1024x24, .bf16⟩
  | .hbm, ⟨64, _⟩ => ⟨S16x1024, .f32⟩
  | .hbm, ⟨65, _⟩ => ⟨S_, .f32⟩
  | .hbm, ⟨66, _⟩ => ⟨S1024, .f32⟩
  | .hbm, ⟨67, _⟩ => ⟨S1x1024, .f32⟩
  | .hbm, ⟨68, _⟩ => ⟨S1024x1024, .f32⟩
  | .hbm, ⟨69, _⟩ => ⟨S_, .f32⟩
  | .hbm, ⟨70, _⟩ => ⟨S1024, .f32⟩
  | .hbm, ⟨71, _⟩ => ⟨S1x1024, .f32⟩
  | .hbm, ⟨72, _⟩ => ⟨S1024x24, .f32⟩
  | .hbm, ⟨73, _⟩ => ⟨S_, .f32⟩
  | .hbm, ⟨74, _⟩ => ⟨S24, .f32⟩
  | .hbm, ⟨75, _⟩ => ⟨S1x24, .f32⟩
  | .hbm, ⟨76, _⟩ => ⟨S1024, .f32⟩
  | .hbm, ⟨77, _⟩ => ⟨S1x1024, .f32⟩
  | .hbm, ⟨78, _⟩ => ⟨S1024, .f32⟩
  | .hbm, ⟨79, _⟩ => ⟨S1x1024, .f32⟩
  | .hbm, ⟨80, _⟩ => ⟨S24, .f32⟩
  | .hbm, ⟨81, _⟩ => ⟨S1x24, .f32⟩
  | .hbm, ⟨82, _⟩ => ⟨S24x3, .bf16⟩
  | .hbm, ⟨83, _⟩ => ⟨S65536x3, .i32⟩
  | .hbm, ⟨84, _⟩ => ⟨S65536x3, .f32⟩
  | .hbm, ⟨85, _⟩ => ⟨S256x256x3, .i32⟩
  | .hbm, ⟨86, _⟩ => ⟨S3x256x256, .i32⟩
  | .hbm, ⟨87, _⟩ => ⟨S256x256x3, .f32⟩
  | .hbm, ⟨88, _⟩ => ⟨S3x256x256, .f32⟩
  | .local _ .vmem, ⟨0, _⟩ => ⟨S512x16, .bf16⟩
  | .local _ .vmem, ⟨1, _⟩ => ⟨S512x16, .bf16⟩
  | .local _ .vmem, ⟨2, _⟩ => ⟨S16x1024, .bf16⟩
  | .local _ .vmem, ⟨3, _⟩ => ⟨S1x1024, .f32⟩
  | .local _ .vmem, ⟨4, _⟩ => ⟨S1x1024, .f32⟩
  | .local _ .vmem, ⟨5, _⟩ => ⟨S1024x1024, .bf16⟩
  | .local _ .vmem, ⟨6, _⟩ => ⟨S1x1024, .f32⟩
  | .local _ .vmem, ⟨7, _⟩ => ⟨S1x1024, .f32⟩
  | .local _ .vmem, ⟨8, _⟩ => ⟨S1024x24, .bf16⟩
  | .local _ .vmem, ⟨9, _⟩ => ⟨S1x24, .f32⟩
  | .local _ .vmem, ⟨10, _⟩ => ⟨S1x24, .f32⟩
  | .local _ .vmem, ⟨11, _⟩ => ⟨S24x3, .bf16⟩
  | .local _ .vmem, ⟨12, _⟩ => ⟨S512x3, .f32⟩
  | .local _ .vmem, ⟨13, _⟩ => ⟨S512x3, .f32⟩
  | .local _ .vmem, ⟨14, _⟩ => ⟨S512x3, .i32⟩
  | .local _ .vmem, ⟨15, _⟩ => ⟨S512x3, .i32⟩
  | .local _ .vmem, ⟨16, _⟩ => ⟨S512x3, .f32⟩
  | .local _ .vmem, ⟨17, _⟩ => ⟨S512x3, .f32⟩
  | _, _ => ⟨S3x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_c : Ref sig .tc := ⟨.hbm, 11, rfl⟩
abbrev main_v3 : Ref sig .tc := ⟨.hbm, 12, rfl⟩
abbrev main_v4 : Ref sig .tc := ⟨.hbm, 13, rfl⟩
abbrev main_c_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_c_1 : Ref sig .tc := ⟨.hbm, 21, rfl⟩
abbrev main_v11 : Ref sig .tc := ⟨.hbm, 22, rfl⟩
abbrev main_v12 : Ref sig .tc := ⟨.hbm, 23, rfl⟩
abbrev main_c_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_c_3 : Ref sig .tc := ⟨.hbm, 31, rfl⟩
abbrev main_v19 : Ref sig .tc := ⟨.hbm, 32, rfl⟩
abbrev main_v20 : Ref sig .tc := ⟨.hbm, 33, rfl⟩
abbrev main_c_4 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_c_5 : Ref sig .tc := ⟨.hbm, 41, rfl⟩
abbrev main_v27 : Ref sig .tc := ⟨.hbm, 42, rfl⟩
abbrev main_v28 : Ref sig .tc := ⟨.hbm, 43, rfl⟩
abbrev main_c_6 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_cst_7 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_cst_8 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_cst_9 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64_0 : Ref sig .tc := ⟨.hbm, 83, rfl⟩
abbrev main_v64_1 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg11_1 : Ref sig .tc := ⟨.vmem, 13, rfl⟩
abbrev cc0_stg12_0 : Ref sig .tc := ⟨.vmem, 14, rfl⟩
abbrev cc0_stg12_1 : Ref sig .tc := ⟨.vmem, 15, rfl⟩
abbrev cc0_stg13_0 : Ref sig .tc := ⟨.vmem, 16, rfl⟩
abbrev cc0_stg13_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem11_1 : DmaSem sig := 13
abbrev cc0_sem12_0 : DmaSem sig := 14
abbrev cc0_sem12_1 : DmaSem sig := 15
abbrev cc0_sem13_0 : DmaSem sig := 16
abbrev cc0_sem13_1 : DmaSem sig := 17

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x16 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x24 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x24 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x24 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S24x3 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x3 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x3 .i32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x3 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

class Facts₀ : Prop where
  bcast_S256_S256x1_0 : S256.BroadcastsInDim S256x1 (![0] : Fin 1 → Fin S256x1.rank)
  bcast_S_S8 : S_.BroadcastsInDim S8 (![] : Fin 0 → Fin S8.rank)
  bcast_S8_S1x8_1 : S8.BroadcastsInDim S1x8 (![1] : Fin 1 → Fin S1x8.rank)
  bcast_S256x1_S256x8_0_1 : S256x1.BroadcastsInDim S256x8 (![0, 1] : Fin 2 → Fin S256x8.rank)
  bcast_S1x8_S256x8_0_1 : S1x8.BroadcastsInDim S256x8 (![0, 1] : Fin 2 → Fin S256x8.rank)
  bcast_S_S256x8 : S_.BroadcastsInDim S256x8 (![] : Fin 0 → Fin S256x8.rank)
  bcast_S256x8_S256x1x8_0_2 : S256x8.BroadcastsInDim S256x1x8 (![0, 2] : Fin 2 → Fin S256x1x8.rank)
  bcast_S256x1x8_S256x256x8_0_1_2 : S256x1x8.BroadcastsInDim S256x256x8 (![0, 1, 2] : Fin 3 → Fin S256x256x8.rank)
  bcast_S256x8_S1x256x8_1_2 : S256x8.BroadcastsInDim S1x256x8 (![1, 2] : Fin 2 → Fin S1x256x8.rank)
  bcast_S1x256x8_S256x256x8_0_1_2 : S1x256x8.BroadcastsInDim S256x256x8 (![0, 1, 2] : Fin 3 → Fin S256x256x8.rank)
  concatenates_S256x256x8_S256x256x8_S256x256x16_d2 : Shape.Concatenates [S256x256x8, S256x256x8] S256x256x16 2
  shapeCasts_S256x256x16_S65536x16 : S256x256x16.ShapeCasts S65536x16
  bitsLt_bf16_f32 : FTy.bits .bf16 < FTy.bits .f32
  transposes_S3x256x256_S256x256x3_1_2_0 : S3x256x256.Transposes [1, 2, 0] S256x256x3
  shapeCasts_S256x256x3_S65536x3 : S256x256x3.ShapeCasts S65536x3
  reducesTo_S16x1024_S1024_d0 : S16x1024.ReducesTo [0] S1024
  h_S_ : 0 < S_.numel
  bcast_S1024_S1x1024_1 : S1024.BroadcastsInDim S1x1024 (![1] : Fin 1 → Fin S1x1024.rank)
  reducesTo_S1024x1024_S1024_d0 : S1024x1024.ReducesTo [0] S1024
  reducesTo_S1024x24_S24_d0 : S1024x24.ReducesTo [0] S24
  bcast_S24_S1x24_1 : S24.BroadcastsInDim S1x24 (![1] : Fin 1 → Fin S1x24.rank)
  shapeCasts_S1024_S1x1024 : S1024.ShapeCasts S1x1024
  shapeCasts_S24_S1x24 : S24.ShapeCasts S1x24
  inb_S512x16_S512x16_0_0 : ∀ a, (![0, 0] : Fin 2 → Nat) a + S512x16.size a ≤ S512x16.size a
  h_S512x16 : 0 < S512x16.numel
  shapeCasts_S512x16_S512x16 : S512x16.ShapeCasts S512x16
  inb_S16x1024_S16x1024_0_0 : ∀ a, (![0, 0] : Fin 2 → Nat) a + S16x1024.size a ≤ S16x1024.size a
  h_S16x1024 : 0 < S16x1024.numel
  shapeCasts_S16x1024_S16x1024 : S16x1024.ShapeCasts S16x1024
  reduces_S512x16_S512 : S512x16.Reduces [1] S512
  shapeCasts_S512_S512x1 : S512.ShapeCasts S512x1
  broadcasts_S512x1_S512x1024 : S512x1.Broadcasts S512x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  natLt_1_32 : 1 < 32
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  reduces_S512x1024_S512 : S512x1024.Reduces [1] S512
  inb_S1024x24_S1024x24_0_0 : ∀ a, (![0, 0] : Fin 2 → Nat) a + S1024x24.size a ≤ S1024x24.size a
  h_S1024x24 : 0 < S1024x24.numel
  shapeCasts_S1024x24_S1024x24 : S1024x24.ShapeCasts S1024x24
  broadcasts_S512x1_S512x24 : S512x1.Broadcasts S512x24
  inb_S1x24_S1x24_0_0 : ∀ a, (![0, 0] : Fin 2 → Nat) a + S1x24.size a ≤ S1x24.size a
  h_S1x24 : 0 < S1x24.numel
  shapeCasts_S1x24_S1x24 : S1x24.ShapeCasts S1x24
  broadcasts_S1x24_S512x24 : S1x24.Broadcasts S512x24
  inb_S24x3_S24x3_0_0 : ∀ a, (![0, 0] : Fin 2 → Nat) a + S24x3.size a ≤ S24x3.size a
  h_S24x3 : 0 < S24x3.numel
  shapeCasts_S24x3_S24x3 : S24x3.ShapeCasts S24x3
  inb_S512x3_S512x3_0_0 : ∀ a, (![0, 0] : Fin 2 → Nat) a + S512x3.size a ≤ S512x3.size a
  h_S512x3 : 0 < S512x3.numel
  shapeCasts_S512x3_S512x3 : S512x3.ShapeCasts S512x3
  shapeCasts_S65536x3_S256x256x3 : S65536x3.ShapeCasts S256x256x3
  transposes_S256x256x3_S3x256x256_2_0_1 : S256x256x3.Transposes [2, 0, 1] S3x256x256
  dot_S512x16_S16x1024_S512x1024_1_0_0_1_n_n_wf : DotDims.WF S512x16 S16x1024 S512x1024 [1] [0] [0] [1] [] []
  dot_S512x1024_S1024x1024_S512x1024_1_0_0_1_n_n_wf : DotDims.WF S512x1024 S1024x1024 S512x1024 [1] [0] [0] [1] [] []
  dot_S512x1024_S1024x24_S512x24_1_0_0_1_n_n_wf : DotDims.WF S512x1024 S1024x24 S512x24 [1] [0] [0] [1] [] []
  dot_S512x24_S24x3_S512x3_1_0_0_1_n_n_wf : DotDims.WF S512x24 S24x3 S512x3 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x16.size a ≤ S65536x16.size a
  hwx0_0 : ∀ i : grid0.Coords, EltTy.bits .bf16 = 32 ∨ (Rect.block (s := S65536x16) S512x16.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x1024.size a ≤ S16x1024.size a
  hwx0_1 : ∀ i : grid0.Coords, EltTy.bits .bf16 = 32 ∨ (Rect.block (s := S16x1024) S16x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x1024.size a
  hwx0_3 : ∀ i : grid0.Coords, EltTy.bits .f32 = 32 ∨ (Rect.block (s := S1x1024) S1x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S1024x1024.size a
  hwx0_4 : ∀ i : grid0.Coords, EltTy.bits .bf16 = 32 ∨ (Rect.block (s := S1024x1024) S1024x1024.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x1024.size a
  hwx0_5 : ∀ i : grid0.Coords, EltTy.bits .f32 = 32 ∨ (Rect.block (s := S1x1024) S1x1024.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1024.size a ≤ S1x1024.size a
  hwx0_6 : ∀ i : grid0.Coords, EltTy.bits .f32 = 32 ∨ (Rect.block (s := S1x1024) S1x1024.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1024x24.size a ≤ S1024x24.size a
  hwx0_7 : ∀ i : grid0.Coords, EltTy.bits .bf16 = 32 ∨ (Rect.block (s := S1024x24) S1024x24.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x24.size a ≤ S1x24.size a
  hwx0_8 : ∀ i : grid0.Coords, EltTy.bits .f32 = 32 ∨ (Rect.block (s := S1x24) S1x24.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x24.size a ≤ S1x24.size a
  hwx0_9 : ∀ i : grid0.Coords, EltTy.bits .f32 = 32 ∨ (Rect.block (s := S1x24) S1x24.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S24x3.size a ≤ S24x3.size a
  hwx0_10 : ∀ i : grid0.Coords, EltTy.bits .bf16 = 32 ∨ (Rect.block (s := S24x3) S24x3.size (cc0_transform_10 i) (hinb0_10 i)).WholeWords (EltTy.packing .bf16)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S512x3.size a ≤ S65536x3.size a
  hwx0_11 : ∀ i : grid0.Coords, EltTy.bits .f32 = 32 ∨ (Rect.block (s := S65536x3) S512x3.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S512x3.size a ≤ S65536x3.size a
  hwx0_12 : ∀ i : grid0.Coords, EltTy.bits .i32 = 32 ∨ (Rect.block (s := S65536x3) S512x3.size (cc0_transform_12 i) (hinb0_12 i)).WholeWords (EltTy.packing .i32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S512x3.size a ≤ S65536x3.size a
  hwx0_13 : ∀ i : grid0.Coords, EltTy.bits .f32 = 32 ∨ (Rect.block (s := S65536x3) S512x3.size (cc0_transform_13 i) (hinb0_13 i)).WholeWords (EltTy.packing .f32)

variable [Facts₀]

def dot_S512x16_S16x1024_S512x1024_1_0_0_1_n_n : DotDims S512x16 S16x1024 S512x1024 where
  lhsContracting := [1]
  rhsContracting := [0]
  lhsNonContracting := [0]
  rhsNonContracting := [1]
  lhsBatch := []
  rhsBatch := []
  wf := dot_S512x16_S16x1024_S512x1024_1_0_0_1_n_n_wf
def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S512x1024_S1024x24_S512x24_1_0_0_1_n_n : DotDims S512x1024 S1024x24 S512x24 where
  lhsContracting := [1]
  rhsContracting := [0]
  lhsNonContracting := [0]
  rhsNonContracting := [1]
  lhsBatch := []
  rhsBatch := []
  wf := dot_S512x1024_S1024x24_S512x24_1_0_0_1_n_n_wf
def dot_S512x24_S24x3_S512x3_1_0_0_1_n_n : DotDims S512x24 S24x3 S512x3 where
  lhsContracting := [1]
  rhsContracting := [0]
  lhsNonContracting := [0]
  rhsNonContracting := [1]
  lhsBatch := []
  rhsBatch := []
  wf := dot_S512x24_S24x3_S512x3_1_0_0_1_n_n_wf

abbrev win0_0 : Pipeline.Window sig grid0 :=
  Pipeline.Window.ofSpec (Memref.whole main_v39) S512x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v43) S16x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v50) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v58) S1x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v45) S1024x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v53) S1x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v60) S1x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v47) S1024x24.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v56) S1x24.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v62) S1x24.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v63) S24x3.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v41) S512x3.size cc0_transform_11 reads0_11 false false 2 stage0_11 sem0_11
    hrank0 hreads0_11 hinb0_11 nbuf0_11 (Memref.isWhole_whole _) hwx0_11 hstage0_11

abbrev win0_12 : Pipeline.Window sig grid0 :=
  Pipeline.Window.ofSpec (Memref.whole main_v64_0) S512x3.size cc0_transform_12 reads0_12 true false 2 stage0_12 sem0_12
    hrank0 hreads0_12 hinb0_12 nbuf0_12 (Memref.isWhole_whole _) hwx0_12 hstage0_12

abbrev win0_13 : Pipeline.Window sig grid0 :=
  Pipeline.Window.ofSpec (Memref.whole main_v64_1) S512x3.size cc0_transform_13 reads0_13 true false 2 stage0_13 sem0_13
    hrank0 hreads0_13 hinb0_13 nbuf0_13 (Memref.isWhole_whole _) hwx0_13 hstage0_13

abbrev win0 : Fin 14 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | ⟨_ + 14, h⟩ => absurd h (Nat.not_lt.2 (Nat.le_add_left _ _))
abbrev spec0 : Fin 14 → Pipeline.WinSpec sig grid0.rank := fun w => (win0 w).toWinSpec

class Facts : Prop extends Facts₀ where

variable [Facts]
-- ==== ReferenceIdeal.lean ====
abbrev S3x256x256 : Shape := ⟨3, ![3, 256, 256]⟩
abbrev S16x1024 : Shape := ⟨2, ![16, 1024]⟩
abbrev S1024 : Shape := ⟨1, ![1024]⟩
abbrev S1024x1024 : Shape := ⟨2, ![1024, 1024]⟩
abbrev S1024x24 : Shape := ⟨2, ![1024, 24]⟩
abbrev S24 : Shape := ⟨1, ![24]⟩
abbrev S256 : Shape := ⟨1, ![256]⟩
abbrev S256x1 : Shape := ⟨2, ![256, 1]⟩
abbrev S8 : Shape := ⟨1, ![8]⟩
abbrev S_ : Shape := ⟨0, ![]⟩
abbrev S1x8 : Shape := ⟨2, ![1, 8]⟩
abbrev S256x8 : Shape := ⟨2, ![256, 8]⟩
abbrev S256x1x8 : Shape := ⟨3, ![256, 1, 8]⟩
abbrev S256x256x8 : Shape := ⟨3, ![256, 256, 8]⟩
abbrev S1x256x8 : Shape := ⟨3, ![1, 256, 8]⟩
abbrev S256x256x16 : Shape := ⟨3, ![256, 256, 16]⟩
abbrev S65536x16 : Shape := ⟨2, ![65536, 16]⟩
abbrev S65536x1024 : Shape := ⟨2, ![65536, 1024]⟩
abbrev S1x1024 : Shape := ⟨2, ![1, 1024]⟩
abbrev S65536x24 : Shape := ⟨2, ![65536, 24]⟩
abbrev S1x24 : Shape := ⟨2, ![1, 24]⟩
abbrev S256x256x3x8 : Shape := ⟨4, ![256, 256, 3, 8]⟩
abbrev S1x1x1x8 : Shape := ⟨4, ![1, 1, 1, 8]⟩
abbrev S256x256x3 : Shape := ⟨3, ![256, 256, 3]⟩

abbrev nBuf : Space → Nat
  | .hbm => 209
  | .vmem => 0
  | .smem => 0
  | _ => 0

abbrev hbmTy0_0 (i : Nat) : BufTy := match i % 128 with
  | 0 => ⟨S3x256x256, .f32⟩
  | 1 => ⟨S16x1024, .i1⟩
  | 2 => ⟨S1024, .i32⟩
  | 3 => ⟨S1024x1024, .i1⟩
  | 4 => ⟨S1024, .i32⟩
  | 5 => ⟨S1024x24, .i1⟩
  | 6 => ⟨S24, .i32⟩
  | 7 => ⟨S256, .i32⟩
  | 8 => ⟨S256x1, .i32⟩
  | 9 => ⟨S8, .i32⟩
  | 10 => ⟨S_, .i32⟩
  | 11 => ⟨S8, .i32⟩
  | 12 => ⟨S8, .i32⟩
  | 13 => ⟨S_, .i32⟩
  | 14 => ⟨S8, .i32⟩
  | 15 => ⟨S8, .i32⟩
  | 16 => ⟨S1x8, .i32⟩
  | 17 => ⟨S256x8, .i32⟩
  | 18 => ⟨S256x8, .i32⟩
  | 19 => ⟨S256x8, .i32⟩
  | 20 => ⟨S_, .i32⟩
  | 21 => ⟨S256x8, .i32⟩
  | 22 => ⟨S256x8, .i32⟩
  | 23 => ⟨S_, .i32⟩
  | 24 => ⟨S256x8, .i32⟩
  | 25 => ⟨S256x8, .i1⟩
  | 26 => ⟨S256x8, .i1⟩
  | 27 => ⟨S256, .i32⟩
  | 28 => ⟨S256x1, .i32⟩
  | 29 => ⟨S8, .i32⟩
  | 30 => ⟨S_, .i32⟩
  | 31 => ⟨S8, .i32⟩
  | 32 => ⟨S8, .i32⟩
  | 33 => ⟨S_, .i32⟩
  | 34 => ⟨S8, .i32⟩
  | 35 => ⟨S8, .i32⟩
  | 36 => ⟨S1x8, .i32⟩
  | 37 => ⟨S256x8, .i32⟩
  | 38 => ⟨S256x8, .i32⟩
  | 39 => ⟨S256x8, .i32⟩
  | 40 => ⟨S_, .i32⟩
  | 41 => ⟨S256x8, .i32⟩
  | 42 => ⟨S256x8, .i32⟩
  | 43 => ⟨S_, .i32⟩
  | 44 => ⟨S256x8, .i32⟩
  | 45 => ⟨S256x8, .i1⟩
  | 46 => ⟨S256x8, .i1⟩
  | 47 => ⟨S256x1x8, .i1⟩
  | 48 => ⟨S256x256x8, .i1⟩
  | 49 => ⟨S1x256x8, .i1⟩
  | 50 => ⟨S256x256x8, .i1⟩
  | 51 => ⟨S256x256x16, .i1⟩
  | 52 => ⟨S65536x16, .i1⟩
  | 53 => ⟨S65536x16, .f32⟩
  | 54 => ⟨S16x1024, .f32⟩
  | 55 => ⟨S65536x1024, .f32⟩
  | 56 => ⟨S_, .f32⟩
  | 57 => ⟨S65536x16, .f32⟩
  | 58 => ⟨S65536x16, .f32⟩
  | 59 => ⟨S_, .f32⟩
  | 60 => ⟨S16x1024, .f32⟩
  | 61 => ⟨S16x1024, .f32⟩
  | 62 => ⟨S65536x1024, .f32⟩
  | 63 => ⟨S65536x1024, .f32⟩
  | 64 => ⟨S1024, .f32⟩
  | 65 => ⟨S1x1024, .f32⟩
  | 66 => ⟨S65536x1024, .f32⟩
  | 67 => ⟨S65536x1024, .i1⟩
  | 68 => ⟨S65536x1024, .f32⟩
  | 69 => ⟨S1024x1024, .f32⟩
  | 70 => ⟨S65536x1024, .f32⟩
  | 71 => ⟨S_, .f32⟩
  | 72 => ⟨S65536x1024, .f32⟩
  | 73 => ⟨S65536x1024, .f32⟩
  | 74 => ⟨S_, .f32⟩
  | 75 => ⟨S1024x1024, .f32⟩
  | 76 => ⟨S1024x1024, .f32⟩
  | 77 => ⟨S65536x1024, .f32⟩
  | 78 => ⟨S65536x1024, .f32⟩
  | 79 => ⟨S1024, .f32⟩
  | 80 => ⟨S1x1024, .f32⟩
  | 81 => ⟨S65536x1024, .f32⟩
  | 82 => ⟨S65536x1024, .i1⟩
  | 83 => ⟨S65536x1024, .f32⟩
  | 84 => ⟨S1024x24, .f32⟩
  | 85 => ⟨S65536x24, .f32⟩
  | 86 => ⟨S_, .f32⟩
  | 87 => ⟨S65536x1024, .f32⟩
  | 88 => ⟨S65536x1024, .f32⟩
  | 89 => ⟨S_, .f32⟩
  | 90 => ⟨S1024x24, .f32⟩
  | 91 => ⟨S1024x24, .f32⟩
  | 92 => ⟨S65536x24, .f32⟩
  | 93 => ⟨S65536x24, .f32⟩
  | 94 => ⟨S24, .f32⟩
  | 95 => ⟨S1x24, .f32⟩
  | 96 => ⟨S65536x24, .f32⟩
  | 97 => ⟨S65536x24, .i1⟩
  | 98 => ⟨S256x256x3x8, .i1⟩
  | 99 => ⟨S8, .i32⟩
  | 100 => ⟨S_, .i32⟩
  | 101 => ⟨S8, .i32⟩
  | 102 => ⟨S8, .i32⟩
  | 103 => ⟨S_, .i32⟩
  | 104 => ⟨S8, .i32⟩
  | 105 => ⟨S8, .i32⟩
  | 106 => ⟨S_, .i32⟩
  | 107 => ⟨S_, .i32⟩
  | 108 => ⟨S_, .i1⟩
  | 109 => ⟨S_, .i32⟩
  | 110 => ⟨S8, .i32⟩
  | 111 => ⟨S8, .i1⟩
  | 112 => ⟨S8, .i1⟩
  | 113 => ⟨S8, .i1⟩
  | 114 => ⟨S_, .i32⟩
  | 115 => ⟨S_, .i32⟩
  | 116 => ⟨S8, .i32⟩
  | 117 => ⟨S8, .i32⟩
  | 118 => ⟨S8, .i32⟩
  | 119 => ⟨S_, .i32⟩
  | 120 => ⟨S8, .i32⟩
  | 121 => ⟨S8, .i32⟩
  | 122 => ⟨S_, .i32⟩
  | 123 => ⟨S8, .i32⟩
  | 124 => ⟨S8, .i32⟩
  | 125 => ⟨S_, .i32⟩
  | 126 => ⟨S8, .i32⟩
  | 127 => ⟨S8, .i1⟩
  | _ => ⟨S3x256x256, .f32⟩

abbrev hbmTy0_1 (i : Nat) : BufTy := match i % 128 with
  | 0 => ⟨S8, .i32⟩
  | 1 => ⟨S_, .i32⟩
  | 2 => ⟨S_, .i32⟩
  | 3 => ⟨S_, .i32⟩
  | 4 => ⟨S_, .i32⟩
  | 5 => ⟨S8, .i32⟩
  | 6 => ⟨S8, .i32⟩
  | 7 => ⟨S_, .i32⟩
  | 8 => ⟨S8, .i32⟩
  | 9 => ⟨S8, .i32⟩
  | 10 => ⟨S8, .i32⟩
  | 11 => ⟨S8, .i32⟩
  | 12 => ⟨S_, .i32⟩
  | 13 => ⟨S8, .i32⟩
  | 14 => ⟨S8, .i1⟩
  | 15 => ⟨S8, .i32⟩
  | 16 => ⟨S_, .i32⟩
  | 17 => ⟨S_, .i32⟩
  | 18 => ⟨S8, .i32⟩
  | 19 => ⟨S8, .i32⟩
  | 20 => ⟨S_, .i32⟩
  | 21 => ⟨S8, .i32⟩
  | 22 => ⟨S8, .i32⟩
  | 23 => ⟨S8, .i32⟩
  | 24 => ⟨S8, .i32⟩
  | 25 => ⟨S_, .i32⟩
  | 26 => ⟨S8, .i32⟩
  | 27 => ⟨S8, .i1⟩
  | 28 => ⟨S8, .i32⟩
  | 29 => ⟨S_, .i32⟩
  | 30 => ⟨S_, .i32⟩
  | 31 => ⟨S8, .i32⟩
  | 32 => ⟨S8, .i32⟩
  | 33 => ⟨S_, .i32⟩
  | 34 => ⟨S8, .i32⟩
  | 35 => ⟨S8, .i32⟩
  | 36 => ⟨S8, .i32⟩
  | 37 => ⟨S8, .i32⟩
  | 38 => ⟨S_, .i32⟩
  | 39 => ⟨S8, .i32⟩
  | 40 => ⟨S8, .i1⟩
  | 41 => ⟨S8, .i32⟩
  | 42 => ⟨S_, .i32⟩
  | 43 => ⟨S_, .i32⟩
  | 44 => ⟨S8, .i32⟩
  | 45 => ⟨S8, .i32⟩
  | 46 => ⟨S_, .i32⟩
  | 47 => ⟨S8, .i32⟩
  | 48 => ⟨S8, .i32⟩
  | 49 => ⟨S8, .i32⟩
  | 50 => ⟨S8, .i32⟩
  | 51 => ⟨S_, .i32⟩
  | 52 => ⟨S8, .i32⟩
  | 53 => ⟨S8, .i1⟩
  | 54 => ⟨S8, .i32⟩
  | 55 => ⟨S_, .i32⟩
  | 56 => ⟨S_, .i32⟩
  | 57 => ⟨S8, .i32⟩
  | 58 => ⟨S8, .i32⟩
  | 59 => ⟨S_, .i32⟩
  | 60 => ⟨S8, .i32⟩
  | 61 => ⟨S8, .i32⟩
  | 62 => ⟨S8, .i32⟩
  | 63 => ⟨S8, .i32⟩
  | 64 => ⟨S_, .i32⟩
  | 65 => ⟨S8, .i32⟩
  | 66 => ⟨S8, .i1⟩
  | 67 => ⟨S8, .i32⟩
  | 68 => ⟨S_, .i32⟩
  | 69 => ⟨S_, .i32⟩
  | 70 => ⟨S8, .i32⟩
  | 71 => ⟨S8, .i32⟩
  | 72 => ⟨S256x256x3x8, .i32⟩
  | 73 => ⟨S1x1x1x8, .i32⟩
  | 74 => ⟨S256x256x3x8, .i32⟩
  | 75 => ⟨S256x256x3x8, .i32⟩
  | 76 => ⟨S_, .i32⟩
  | 77 => ⟨S256x256x3, .i32⟩
  | 78 => ⟨S3x256x256, .i32⟩
  | 79 => ⟨S3x256x256, .f32⟩
  | 80 => ⟨S3x256x256, .f32⟩
  | _ => ⟨S3x256x256, .f32⟩

abbrev hbmTy (i : Nat) : BufTy := match i / 128 with
  | 0 => hbmTy0_0 i
  | 1 => hbmTy0_1 i
  | _ => ⟨S3x256x256, .f32⟩

abbrev bufTy : (tb : Table) → Fin (tcTables nBuf tb) → BufTy
  | .hbm, ⟨i, _⟩ => hbmTy i
  | _, _ => ⟨S3x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_c : Ref sig .tc := ⟨.hbm, 10, rfl⟩
abbrev main_v3 : Ref sig .tc := ⟨.hbm, 11, rfl⟩
abbrev main_v4 : Ref sig .tc := ⟨.hbm, 12, rfl⟩
abbrev main_c_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c_1 : Ref sig .tc := ⟨.hbm, 20, rfl⟩
abbrev main_v11 : Ref sig .tc := ⟨.hbm, 21, rfl⟩
abbrev main_v12 : Ref sig .tc := ⟨.hbm, 22, rfl⟩
abbrev main_c_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_c_3 : Ref sig .tc := ⟨.hbm, 30, rfl⟩
abbrev main_v19 : Ref sig .tc := ⟨.hbm, 31, rfl⟩
abbrev main_v20 : Ref sig .tc := ⟨.hbm, 32, rfl⟩
abbrev main_c_4 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_c_5 : Ref sig .tc := ⟨.hbm, 40, rfl⟩
abbrev main_v27 : Ref sig .tc := ⟨.hbm, 41, rfl⟩
abbrev main_v28 : Ref sig .tc := ⟨.hbm, 42, rfl⟩
abbrev main_c_6 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst : Ref sig .tc := ⟨.hbm, 56, rfl⟩
abbrev main_v41 : Ref sig .tc := ⟨.hbm, 57, rfl⟩
abbrev main_v42 : Ref sig .tc := ⟨.hbm, 58, rfl⟩
abbrev main_cst_7 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_cst_8 : Ref sig .tc := ⟨.hbm, 71, rfl⟩
abbrev main_v54 : Ref sig .tc := ⟨.hbm, 72, rfl⟩
abbrev main_v55 : Ref sig .tc := ⟨.hbm, 73, rfl⟩
abbrev main_cst_9 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_cst_10 : Ref sig .tc := ⟨.hbm, 86, rfl⟩
abbrev main_v67 : Ref sig .tc := ⟨.hbm, 87, rfl⟩
abbrev main_v68 : Ref sig .tc := ⟨.hbm, 88, rfl⟩
abbrev main_cst_11 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_c_12 : Ref sig .tc := ⟨.hbm, 100, rfl⟩
abbrev main_v79 : Ref sig .tc := ⟨.hbm, 101, rfl⟩
abbrev main_v80 : Ref sig .tc := ⟨.hbm, 102, rfl⟩
abbrev main_c_13 : Ref sig .tc := ⟨.hbm, 103, rfl⟩
abbrev main_v81 : Ref sig .tc := ⟨.hbm, 104, rfl⟩
abbrev main_v82 : Ref sig .tc := ⟨.hbm, 105, rfl⟩
abbrev main_c_14 : Ref sig .tc := ⟨.hbm, 106, rfl⟩
abbrev main_c_15 : Ref sig .tc := ⟨.hbm, 107, rfl⟩
abbrev main_v83 : Ref sig .tc := ⟨.hbm, 108, rfl⟩
abbrev main_c_16 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_c_17 : Ref sig .tc := ⟨.hbm, 114, rfl⟩
abbrev main_c_18 : Ref sig .tc := ⟨.hbm, 115, rfl⟩
abbrev main_call0_v0 : Ref sig .tc := ⟨.hbm, 116, rfl⟩
abbrev main_call0_v1 : Ref sig .tc := ⟨.hbm, 117, rfl⟩
abbrev main_v88 : Ref sig .tc := ⟨.hbm, 118, rfl⟩
abbrev main_c_19 : Ref sig .tc := ⟨.hbm, 119, rfl⟩
abbrev main_v89 : Ref sig .tc := ⟨.hbm, 120, rfl⟩
abbrev main_v90 : Ref sig .tc := ⟨.hbm, 121, rfl⟩
abbrev main_c_20 : Ref sig .tc := ⟨.hbm, 122, rfl⟩
abbrev main_v91 : Ref sig .tc := ⟨.hbm, 123, rfl⟩
abbrev main_v92 : Ref sig .tc := ⟨.hbm, 124, rfl⟩
abbrev main_call1_c : Ref sig .tc := ⟨.hbm, 125, rfl⟩
abbrev main_call1_v0 : Ref sig .tc := ⟨.hbm, 126, rfl⟩
abbrev main_call1_v1 : Ref sig .tc := ⟨.hbm, 127, rfl⟩
abbrev main_v93 : Ref sig .tc := ⟨.hbm, 128, rfl⟩
abbrev main_c_21 : Ref sig .tc := ⟨.hbm, 129, rfl⟩
abbrev main_c_22 : Ref sig .tc := ⟨.hbm, 130, rfl⟩
abbrev main_v94 : Ref sig .tc := ⟨.hbm, 131, rfl⟩
abbrev main_c_23 : Ref sig .tc := ⟨.hbm, 132, rfl⟩
abbrev main_v95 : Ref sig .tc := ⟨.hbm, 133, rfl⟩
abbrev main_v96 : Ref sig .tc := ⟨.hbm, 134, rfl⟩
abbrev main_c_24 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_call2_c : Ref sig .tc := ⟨.hbm, 140, rfl⟩
abbrev main_call2_v0 : Ref sig .tc := ⟨.hbm, 141, rfl⟩
abbrev main_call2_v1 : Ref sig .tc := ⟨.hbm, 142, rfl⟩
abbrev main_v101 : Ref sig .tc := ⟨.hbm, 143, rfl⟩
abbrev main_v102 : Ref sig .tc := ⟨.hbm, 144, rfl⟩
abbrev main_c_25 : Ref sig .tc := ⟨.hbm, 145, rfl⟩
abbrev main_v103 : Ref sig .tc := ⟨.hbm, 146, rfl⟩
abbrev main_v104 : Ref sig .tc := ⟨.hbm, 147, rfl⟩
abbrev main_c_26 : Ref sig .tc := ⟨.hbm, 148, rfl⟩
abbrev main_v105 : Ref sig .tc := ⟨.hbm, 149, rfl⟩
abbrev main_v106 : Ref sig .tc := ⟨.hbm, 150, rfl⟩
abbrev main_v107 : Ref sig .tc := ⟨.hbm, 151, rfl⟩
abbrev main_v108 : Ref sig .tc := ⟨.hbm, 152, rfl⟩
abbrev main_call3_c : Ref sig .tc := ⟨.hbm, 153, rfl⟩
abbrev main_call3_v0 : Ref sig .tc := ⟨.hbm, 154, rfl⟩
abbrev main_call3_v1 : Ref sig .tc := ⟨.hbm, 155, rfl⟩
abbrev main_v109 : Ref sig .tc := ⟨.hbm, 156, rfl⟩
abbrev main_v110 : Ref sig .tc := ⟨.hbm, 157, rfl⟩
abbrev main_c_27 : Ref sig .tc := ⟨.hbm, 158, rfl⟩
abbrev main_v111 : Ref sig .tc := ⟨.hbm, 159, rfl⟩
abbrev main_v112 : Ref sig .tc := ⟨.hbm, 160, rfl⟩
abbrev main_c_28 : Ref sig .tc := ⟨.hbm, 161, rfl⟩
abbrev main_v113 : Ref sig .tc := ⟨.hbm, 162, rfl⟩
abbrev main_v114 : Ref sig .tc := ⟨.hbm, 163, rfl⟩
abbrev main_v115 : Ref sig .tc := ⟨.hbm, 164, rfl⟩
abbrev main_v116 : Ref sig .tc := ⟨.hbm, 165, rfl⟩
abbrev main_call4_c : Ref sig .tc := ⟨.hbm, 166, rfl⟩
abbrev main_call4_v0 : Ref sig .tc := ⟨.hbm, 167, rfl⟩
abbrev main_call4_v1 : Ref sig .tc := ⟨.hbm, 168, rfl⟩
abbrev main_v117 : Ref sig .tc := ⟨.hbm, 169, rfl⟩
abbrev main_v118 : Ref sig .tc := ⟨.hbm, 170, rfl⟩
abbrev main_c_29 : Ref sig .tc := ⟨.hbm, 171, rfl⟩
abbrev main_v119 : Ref sig .tc := ⟨.hbm, 172, rfl⟩
abbrev main_v120 : Ref sig .tc := ⟨.hbm, 173, rfl⟩
abbrev main_c_30 : Ref sig .tc := ⟨.hbm, 174, rfl⟩
abbrev main_v121 : Ref sig .tc := ⟨.hbm, 175, rfl⟩
abbrev main_v122 : Ref sig .tc := ⟨.hbm, 176, rfl⟩
abbrev main_v123 : Ref sig .tc := ⟨.hbm, 177, rfl⟩
abbrev main_v124 : Ref sig .tc := ⟨.hbm, 178, rfl⟩
abbrev main_call5_c : Ref sig .tc := ⟨.hbm, 179, rfl⟩
abbrev main_call5_v0 : Ref sig .tc := ⟨.hbm, 180, rfl⟩
abbrev main_call5_v1 : Ref sig .tc := ⟨.hbm, 181, rfl⟩
abbrev main_v125 : Ref sig .tc := ⟨.hbm, 182, rfl⟩
abbrev main_v126 : Ref sig .tc := ⟨.hbm, 183, rfl⟩
abbrev main_c_31 : Ref sig .tc := ⟨.hbm, 184, rfl⟩
abbrev main_v127 : Ref sig .tc := ⟨.hbm, 185, rfl⟩
abbrev main_v128 : Ref sig .tc := ⟨.hbm, 186, rfl⟩
abbrev main_c_32 : Ref sig .tc := ⟨.hbm, 187, rfl⟩
abbrev main_v129 : Ref sig .tc := ⟨.hbm, 188, rfl⟩
abbrev main_v130 : Ref sig .tc := ⟨.hbm, 189, rfl⟩
abbrev main_v131 : Ref sig .tc := ⟨.hbm, 190, rfl⟩
abbrev main_v132 : Ref sig .tc := ⟨.hbm, 191, rfl⟩
abbrev main_call6_c : Ref sig .tc := ⟨.hbm, 192, rfl⟩
abbrev main_call6_v0 : Ref sig .tc := ⟨.hbm, 193, rfl⟩
abbrev main_call6_v1 : Ref sig .tc := ⟨.hbm, 194, rfl⟩
abbrev main_v133 : Ref sig .tc := ⟨.hbm, 195, rfl⟩
abbrev main_v134 : Ref sig .tc := ⟨.hbm, 196, rfl⟩
abbrev main_c_33 : Ref sig .tc := ⟨.hbm, 197, rfl⟩
abbrev main_v135 : Ref sig .tc := ⟨.hbm, 198, rfl⟩
abbrev main_v136 : Ref sig .tc := ⟨.hbm, 199, rfl⟩
abbrev main_v137 : Ref sig .tc := ⟨.hbm, 200, rfl⟩
abbrev main_v138 : Ref sig .tc := ⟨.hbm, 201, rfl⟩
abbrev main_v139 : Ref sig .tc := ⟨.hbm, 202, rfl⟩
abbrev main_v140 : Ref sig .tc := ⟨.hbm, 203, rfl⟩
abbrev main_c_34 : Ref sig .tc := ⟨.hbm, 204, rfl⟩
abbrev main_v141 : Ref sig .tc := ⟨.hbm, 205, rfl⟩
abbrev main_v142 : Ref sig .tc := ⟨.hbm, 206, rfl⟩
abbrev main_v143 : Ref sig .tc := ⟨.hbm, 207, rfl⟩
abbrev main_v144 : Ref sig .tc := ⟨.hbm, 208, rfl⟩

abbrev nD : Nat := 1
abbrev τ : Topo := Topo.v7x

variable {F : FTy → Type} [FloatOps F]

class Facts₀ : Prop where
  bcast_S256_S256x1_0 : S256.BroadcastsInDim S256x1 (![0] : Fin 1 → Fin S256x1.rank)
  bcast_S_S8 : S_.BroadcastsInDim S8 (![] : Fin 0 → Fin S8.rank)
  bcast_S8_S1x8_1 : S8.BroadcastsInDim S1x8 (![1] : Fin 1 → Fin S1x8.rank)
  bcast_S256x1_S256x8_0_1 : S256x1.BroadcastsInDim S256x8 (![0, 1] : Fin 2 → Fin S256x8.rank)
  bcast_S1x8_S256x8_0_1 : S1x8.BroadcastsInDim S256x8 (![0, 1] : Fin 2 → Fin S256x8.rank)
  bcast_S_S256x8 : S_.BroadcastsInDim S256x8 (![] : Fin 0 → Fin S256x8.rank)
  bcast_S256x8_S256x1x8_0_2 : S256x8.BroadcastsInDim S256x1x8 (![0, 2] : Fin 2 → Fin S256x1x8.rank)
  bcast_S256x1x8_S256x256x8_0_1_2 : S256x1x8.BroadcastsInDim S256x256x8 (![0, 1, 2] : Fin 3 → Fin S256x256x8.rank)
  bcast_S256x8_S1x256x8_1_2 : S256x8.BroadcastsInDim S1x256x8 (![1, 2] : Fin 2 → Fin S1x256x8.rank)
  bcast_S1x256x8_S256x256x8_0_1_2 : S1x256x8.BroadcastsInDim S256x256x8 (![0, 1, 2] : Fin 3 → Fin S256x256x8.rank)
  concatenates_S256x256x8_S256x256x8_S256x256x16_d2 : Shape.Concatenates [S256x256x8, S256x256x8] S256x256x16 2
  shapeCasts_S256x256x16_S65536x16 : S256x256x16.ShapeCasts S65536x16
  bcast_S_S65536x16 : S_.BroadcastsInDim S65536x16 (![] : Fin 0 → Fin S65536x16.rank)
  bcast_S_S16x1024 : S_.BroadcastsInDim S16x1024 (![] : Fin 0 → Fin S16x1024.rank)
  bcast_S1024_S1x1024_1 : S1024.BroadcastsInDim S1x1024 (![1] : Fin 1 → Fin S1x1024.rank)
  bcast_S1x1024_S65536x1024_0_1 : S1x1024.BroadcastsInDim S65536x1024 (![0, 1] : Fin 2 → Fin S65536x1024.rank)
  bcast_S_S65536x1024 : S_.BroadcastsInDim S65536x1024 (![] : Fin 0 → Fin S65536x1024.rank)
  bcast_S_S1024x1024 : S_.BroadcastsInDim S1024x1024 (![] : Fin 0 → Fin S1024x1024.rank)
  bcast_S_S1024x24 : S_.BroadcastsInDim S1024x24 (![] : Fin 0 → Fin S1024x24.rank)
  bcast_S24_S1x24_1 : S24.BroadcastsInDim S1x24 (![1] : Fin 1 → Fin S1x24.rank)
  bcast_S1x24_S65536x24_0_1 : S1x24.BroadcastsInDim S65536x24 (![0, 1] : Fin 2 → Fin S65536x24.rank)
  shapeCasts_S65536x24_S256x256x3x8 : S65536x24.ShapeCasts S256x256x3x8
  natLt_1_32 : 1 < 32
  bcast_S8_S1x1x1x8_3 : S8.BroadcastsInDim S1x1x1x8 (![3] : Fin 1 → Fin S1x1x1x8.rank)
  bcast_S1x1x1x8_S256x256x3x8_0_1_2_3 : S1x1x1x8.BroadcastsInDim S256x256x3x8 (![0, 1, 2, 3] : Fin 4 → Fin S256x256x3x8.rank)
  reducesTo_S256x256x3x8_S256x256x3_d3 : S256x256x3x8.ReducesTo [3] S256x256x3
  h_S_ : 0 < S_.numel
  transposes_S256x256x3_S3x256x256_2_0_1 : S256x256x3.Transposes [2, 0, 1] S3x256x256
  dot_S65536x16_S16x1024_S65536x1024_1_0_0_1_n_n_wf : DotDims.WF S65536x16 S16x1024 S65536x1024 [1] [0] [0] [1] [] []
  dot_S65536x1024_S1024x1024_S65536x1024_1_0_0_1_n_n_wf : DotDims.WF S65536x1024 S1024x1024 S65536x1024 [1] [0] [0] [1] [] []
  dot_S65536x1024_S1024x24_S65536x24_1_0_0_1_n_n_wf : DotDims.WF S65536x1024 S1024x24 S65536x24 [1] [0] [0] [1] [] []

variable [Facts₀]

def dot_S65536x16_S16x1024_S65536x1024_1_0_0_1_n_n : DotDims S65536x16 S16x1024 S65536x1024 where
  lhsContracting := [1]
  rhsContracting := [0]
  lhsNonContracting := [0]
  rhsNonContracting := [1]
  lhsBatch := []
  rhsBatch := []
  wf := dot_S65536x16_S16x1024_S65536x1024_1_0_0_1_n_n_wf
def dot_S65536x1024_S1024x1024_S65536x1024_1_0_0_1_n_n : DotDims S65536x1024 S1024x1024 S65536x1024 where
  lhsContracting := [1]
  rhsContracting := [0]
  lhsNonContracting := [0]
  rhsNonContracting := [1]
  lhsBatch := []
  rhsBatch := []
  wf := dot_S65536x1024_S1024x1024_S65536x1024_1_0_0_1_n_n_wf
def dot_S65536x1024_S1024x24_S65536x24_1_0_0_1_n_n : DotDims S65536x1024 S1024x24 S65536x24 where
  lhsContracting := [1]
  rhsContracting := [0]
  lhsNonContracting := [0]
  rhsNonContracting := [1]
  lhsBatch := []
  rhsBatch := []
  wf := dot_S65536x1024_S1024x24_S65536x24_1_0_0_1_n_n_wf

class Facts : Prop extends Facts₀ where

variable [Facts]
-- ==== Proof.Spec.lean ====
/-
  The function both programs compute, written once, index by index.

  Pixel `n = 256·h + w` of a 256 × 256 picture carries 16 position bits. Three layers of binary neurons follow. A layer
  with `K` input bits `x`, weight bits `m` (`K × O`) and integer thresholds `t` (`O` of them) outputs, for each `o`,
  the bit "the number of coordinates `k` on which `x k` and `m k o` AGREE exceeds `t o`". With the bits read as the real
  numbers 0 and 1 the agreement count is `Σₖ x·m + Σₖ (1 − x)·(1 − m)`: a coordinate contributes 1 exactly when both bits
  are one or both are zero. The layers have 16 → 1024 → 1024 → 24 bits.

  The last layer's 24 bits are three bytes, most significant bit first: channel `c` of pixel `n` is the 32-bit word
  `Σ_b bit (8·c + b) · 2^(7 − b)`. The first result holds that word at `(c, h, w)`; the second holds the same number, read
  as a real, minus the image there.

  The position bits are a parameter here: both programs build them by the same integer operations, and nothing below
  depends on what they are.
-/
import Idealize.ShloMosaic.PureOps.Ideal
import Idealize.ShloMosaic.Lib.ValueIdx

noncomputable section

open scoped BigOperators

namespace Cert.Spec

open Idealize.ShloMosaic Idealize.ShloMosaic.ValueIdx

/-- A bit read as the real number 0 or 1. -/
def bitVal (b : BitVec 1) : EReal := ((b.toNat : ℝ) : EReal)

/-- On how many of `K` coordinates two rows of bits agree (both one, or both zero), as a sum over the bits read as reals. -/
def agree {K : ℕ} (x m : Fin K → BitVec 1) : EReal :=
  (∑ k, bitVal (x k) * bitVal (m k)) + ∑ k, (1 - bitVal (x k)) * (1 - bitVal (m k))

/-- A neuron fires when its agreement count is strictly above its threshold, the threshold an integer read as a real. -/
def fire {K : ℕ} (x m : Fin K → BitVec 1) (t : BitVec 32) : BitVec 1 :=
  Ideal.cmp .ogt (agree x m) ((t.toInt : ℝ) : EReal)

/-- Bit `b` (most significant first) of byte `c` among the last layer's 24 outputs. -/
def byteBit (c : Fin 3) (b : Fin 8) : Fin 24 := ⟨c.val * 8 + b.val, by omega⟩

/-- Pixel `(h, w)` in row-major order. -/
def pixel (h w : Fin 256) : Fin 65536 := ⟨h.val * 256 + w.val, by omega⟩

/-- Row and column of a pixel. -/
def pixRow (n : Fin 65536) : Fin 256 := ⟨n.val / 256, by omega⟩
def pixCol (n : Fin 65536) : Fin 256 := ⟨n.val % 256, by omega⟩

section Net

variable (pos : IVec ⟨2, ![65536, 16]⟩ 1)
  (mask0 : IVec ⟨2, ![16, 1024]⟩ 1) (thr0 : IVec ⟨1, ![1024]⟩ 32)
  (mask1 : IVec ⟨2, ![1024, 1024]⟩ 1) (thr1 : IVec ⟨1, ![1024]⟩ 32)
  (mask2 : IVec ⟨2, ![1024, 24]⟩ 1) (thr2 : IVec ⟨1, ![24]⟩ 32)

/-- First layer: 16 position bits of pixel `n` against column `o` of the first weights. -/
def act1 (n : Fin 65536) (o : Fin 1024) : BitVec 1 :=
  fire (fun k : Fin 16 => pos (ix2 n k)) (fun k => mask0 (ix2 k o)) (thr0 (ix1 o))

/-- Second layer, over the first layer's 1024 bits. -/
def act2 (n : Fin 65536) (o : Fin 1024) : BitVec 1 :=
  fire (fun k : Fin 1024 => act1 pos mask0 thr0 n k) (fun k => mask1 (ix2 k o)) (thr1 (ix1 o))

/-- Third layer: 24 bits per pixel. -/
def act3 (n : Fin 65536) (o : Fin 24) : BitVec 1 :=
  fire (fun k : Fin 1024 => act2 pos mask0 thr0 mask1 thr1 n k) (fun k => mask2 (ix2 k o)) (thr2 (ix1 o))

/-- Byte `c` of pixel `n` as a natural number below 256. -/
def byteNat (n : Fin 65536) (c : Fin 3) : ℕ :=
  ∑ b : Fin 8, (act3 pos mask0 thr0 mask1 thr1 mask2 thr2 n (byteBit c b)).toNat * 2 ^ (7 - b.val)

/-- The same as a 32-bit word. -/
def byteWord (n : Fin 65536) (c : Fin 3) : BitVec 32 :=
  BitVec.ofNat 32 (byteNat pos mask0 thr0 mask1 thr1 mask2 thr2 n c)

/-- The words pixel by pixel, channels last: what the kernel's region writes. -/
def wordsFlat : IVec ⟨2, ![65536, 3]⟩ 32 :=
  fun i => byteWord pos mask0 thr0 mask1 thr1 mask2 thr2 (i 0) (i 1)

/-- The words minus the image, pixel by pixel, channels last. -/
def errFlat (image : FVec Ideal ⟨3, ![3, 256, 256]⟩ .f32) : FVec Ideal ⟨2, ![65536, 3]⟩ .f32 :=
  fun i => (((byteWord pos mask0 thr0 mask1 thr1 mask2 thr2 (i 0) (i 1)).toInt : ℝ) : EReal)
    - image (ix3 (i 1) (pixRow (i 0)) (pixCol (i 0)))

/-- First result: the word of channel `c` at `(c, h, w)`. -/
def words : IVec ⟨3, ![3, 256, 256]⟩ 32 :=
  fun j => byteWord pos mask0 thr0 mask1 thr1 mask2 thr2 (pixel (j 1) (j 2)) (j 0)

/-- Second result: that word, as a real, minus the image. -/
def err (image : FVec Ideal ⟨3, ![3, 256, 256]⟩ .f32) : FVec Ideal ⟨3, ![3, 256, 256]⟩ .f32 :=
  fun j => (((words pos mask0 thr0 mask1 thr1 mask2 thr2 j).toInt : ℝ) : EReal) - image j

end Net

end Cert.Spec

end
-- ==== Proof.Consts.lean ====
/-
  The float literals the two programs spell, as the real numbers their bit patterns denote: 0, 1, 2 (the factor on the
  bit product), 16 and 1024 (the layers' widths). Stated once here, so that no other module unfolds a bit pattern.
-/
import Idealize.ShloMosaic.PureOps.Ideal

noncomputable section

namespace Cert.Consts

open Idealize.ShloMosaic

/-- `+0.0` denotes 0. -/
theorem ofBits_zero : Ideal.ofBits .f32 0x00000000#32 = 0 := by
  simp [Ideal.ofBits, Ideal.ieee]

/-- `1.0` denotes 1. -/
theorem ofBits_one : Ideal.ofBits .f32 0x3F800000#32 = 1 := by
  simp [Ideal.ofBits, Ideal.ieee, -EReal.coe_mul]; norm_num

/-- `2.0` denotes 2. -/
theorem ofBits_two : Ideal.ofBits .f32 0x40000000#32 = ((2 : ℝ) : EReal) := by
  simp [Ideal.ofBits, Ideal.ieee, -EReal.coe_mul]; norm_num

/-- `16.0` denotes 16, the first layer's width. -/
theorem ofBits_16 : Ideal.ofBits .f32 0x41800000#32 = ((16 : ℝ) : EReal) := by
  simp [Ideal.ofBits, Ideal.ieee, -EReal.coe_mul]; norm_num

/-- `1024.0` denotes 1024, the width of the two later layers. -/
theorem ofBits_1024 : Ideal.ofBits .f32 0x44800000#32 = ((1024 : ℝ) : EReal) := by
  simp [Ideal.ofBits, Ideal.ieee, -EReal.coe_mul]; norm_num

end Cert.Consts

end
-- ==== Proof.Law.lean ====
/-
  The arithmetic that joins the two programs, over bits read as the reals 0 and 1.

  * A bit widened to a 32-bit word and read as a signed integer is the bit itself (the kernel turns a comparison's bit
    into a float that way; the reference converts the bit directly).
  * The agreement count in the kernel's form. Expanding `x·m + (1 − x)(1 − m) = 2·x·m + 1 − x − m` and summing over the
    `K` coordinates, `agree x m = 2·Σ x·m + K − Σ x − Σ m`: one product sum, the row's popcount and the column's popcount
    instead of two product sums. Every term is a finite real, so the identity holds in the extended reals.
  * A byte assembled in floats. With weights `2^(7 − b)` on byte `c`'s eight bits and 0 elsewhere, `Σⱼ bitⱼ·wtⱼ` is a whole
    number below 256; rounding it toward zero changes nothing and it fits 32 bits, so converting it to an integer word
    gives the word `Σ_b bit·2^(7 − b)`. The same word is the sum, in 32-bit arithmetic, of the widened bits times the
    weights as words.
-/
import proofs.«112060_j11020886082300_1_alg».proof.Proof.Spec
import proofs.«112060_j11020886082300_1_alg».proof.Proof.Consts
import Mathlib.Data.BitVec

noncomputable section

open scoped BigOperators

namespace Cert.Spec

open Idealize.ShloMosaic

/-- A one-bit word is zero or one. -/
private theorem bit_cases (b : BitVec 1) : b = 0#1 ∨ b = 1#1 := by
  have h : b.toNat < 2 := b.isLt
  rcases Nat.lt_or_ge b.toNat 1 with h0 | h1
  · left; apply BitVec.eq_of_toNat_eq; simp; omega
  · right; apply BitVec.eq_of_toNat_eq; simp; omega

theorem bitVal_zero : bitVal 0#1 = 0 := by
  simp [bitVal]

theorem bitVal_one : bitVal 1#1 = 1 := by
  simp [bitVal]

/-- A bit widened to 32 bits, read as a signed integer and then as a real, is the bit's value. -/
theorem word_of_bit (b : BitVec 1) : (((b.setWidth 32).toInt : ℝ) : EReal) = bitVal b := by
  obtain rfl | rfl := bit_cases b
  · rw [bitVal_zero]
    have : ((0#1).setWidth 32).toInt = 0 := by decide
    rw [this]; simp
  · rw [bitVal_one]
    have : ((1#1).setWidth 32).toInt = 1 := by decide
    rw [this]; simp

/-- The coercion of the reals into the extended reals commutes with finite sums. -/
private theorem coe_sum {ι : Type*} (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- The agreement count as one product sum and two popcounts. -/
theorem agree_eq_double_dot {K : ℕ} (x m : Fin K → BitVec 1) :
    ((2 : ℝ) : EReal) * (∑ k, bitVal (x k) * bitVal (m k)) + ((K : ℝ) : EReal) - (∑ k, bitVal (x k)) - (∑ k, bitVal (m k))
      = agree x m := by
  -- every summand is the coercion of a real number
  have h1 : ∀ k, bitVal (x k) * bitVal (m k) = (((((x k).toNat : ℝ) * ((m k).toNat : ℝ)) : ℝ) : EReal) := fun k => by
    simp only [bitVal, EReal.coe_mul]
  have h2 : ∀ k, (1 - bitVal (x k)) * (1 - bitVal (m k))
      = ((((1 - ((x k).toNat : ℝ)) * (1 - ((m k).toNat : ℝ))) : ℝ) : EReal) := fun k => by
    simp only [bitVal, EReal.coe_mul, EReal.coe_sub, EReal.coe_one]
  unfold agree
  simp only [h1, h2]
  simp only [bitVal, coe_sum]
  rw [← EReal.coe_mul, ← EReal.coe_add, ← EReal.coe_sub, ← EReal.coe_sub, ← EReal.coe_add]
  congr 1
  -- in the reals: the count K is the sum of ones, and termwise x·m + (1 − x)(1 − m) = 2·x·m + 1 − x − m
  have hK : (K : ℝ) = ∑ _k : Fin K, (1 : ℝ) := by simp
  rw [hK, Finset.mul_sum, ← Finset.sum_add_distrib, ← Finset.sum_sub_distrib, ← Finset.sum_sub_distrib,
    ← Finset.sum_add_distrib]
  refine Finset.sum_congr rfl (fun k _ => ?_)
  ring

/-- Converting a whole number below 2^31, read as a real, to a 32-bit integer gives that number as a word: rounding
    toward zero leaves a whole number alone and neither clamp binds. -/
private theorem fptosi_natCast (N : ℕ) (hN : N < 2 ^ 31) :
    Ideal.fptosi 32 (((N : ℝ) : EReal)) = BitVec.ofNat 32 N := by
  rw [Ideal.fptosi, Ideal.toIntClamped_coe, if_pos (Nat.cast_nonneg N), Int.floor_natCast]
  have h1 : min ((((2 ^ (32 - 1) : ℕ) : ℤ)) - 1) (N : ℤ) = (N : ℤ) := by
    apply min_eq_right
    have : (N : ℤ) < 2 ^ 31 := by exact_mod_cast hN
    push_cast
    omega
  have h2 : max (-(((2 ^ (32 - 1) : ℕ) : ℤ))) (N : ℤ) = (N : ℤ) := by
    apply max_eq_right
    have : (0 : ℤ) ≤ (N : ℤ) := Int.natCast_nonneg N
    push_cast
    omega
  rw [h1, h2, BitVec.ofInt_natCast]

/-- A byte assembled in floats and converted to a 32-bit integer is the byte. -/
theorem fptosi_byte (bits : Fin 24 → BitVec 1) (c : Fin 3) (wt : Fin 24 → EReal)
    (hwt : ∀ j : Fin 24, wt j = if j.val / 8 = c.val then (((2 : ℝ) ^ (7 - j.val % 8) : ℝ) : EReal) else 0) :
    Ideal.fptosi 32 (∑ j : Fin 24, bitVal (bits j) * wt j)
      = BitVec.ofNat 32 (∑ b : Fin 8, (bits (byteBit c b)).toNat * 2 ^ (7 - b.val)) := by
  -- every summand is the coercion of a real number
  have hterm : ∀ j : Fin 24, bitVal (bits j) * wt j
      = (((((bits j).toNat : ℝ) * (if j.val / 8 = c.val then (2 : ℝ) ^ (7 - j.val % 8) else 0)) : ℝ) : EReal) := by
    intro j
    rw [hwt j, bitVal, EReal.coe_mul]
    split_ifs <;> simp
  -- the weights vanish off byte `c`, so only the eight positions `8·c + b` contribute
  have hre : (∑ j : Fin 24, (((bits j).toNat : ℝ) * (if j.val / 8 = c.val then (2 : ℝ) ^ (7 - j.val % 8) else 0)))
      = ∑ b : Fin 8, (((bits (byteBit c b)).toNat : ℝ) * (2 : ℝ) ^ (7 - b.val)) := by
    symm
    apply Fintype.sum_of_injective (byteBit c)
    · intro b b' h
      have := congrArg Fin.val h
      simp only [byteBit] at this
      exact Fin.ext (by omega)
    · intro j hj
      have hne : ¬ (j.val / 8 = c.val) := by
        intro hc
        apply hj
        refine ⟨⟨j.val % 8, Nat.mod_lt _ (by norm_num)⟩, Fin.ext ?_⟩
        simp only [byteBit]
        omega
      rw [if_neg hne, mul_zero]
    · intro b
      have hb := b.isLt
      have hq : (byteBit c b).val / 8 = c.val := by simp only [byteBit]; omega
      have hr : (byteBit c b).val % 8 = b.val := by simp only [byteBit]; omega
      rw [if_pos hq, hr]
  -- the total is a whole number, at most 8 · 128
  have hnat : (∑ b : Fin 8, (((bits (byteBit c b)).toNat : ℝ) * (2 : ℝ) ^ (7 - b.val)))
      = (((∑ b : Fin 8, (bits (byteBit c b)).toNat * 2 ^ (7 - b.val) : ℕ)) : ℝ) := by
    push_cast
    rfl
  have hbound : (∑ b : Fin 8, (bits (byteBit c b)).toNat * 2 ^ (7 - b.val)) < 2 ^ 31 := by
    have hle : (∑ b : Fin 8, (bits (byteBit c b)).toNat * 2 ^ (7 - b.val)) ≤ ∑ _b : Fin 8, 1 * 2 ^ 7 := by
      apply Finset.sum_le_sum
      intro b _
      apply Nat.mul_le_mul
      · have := (bits (byteBit c b)).isLt
        omega
      · exact Nat.pow_le_pow_right (by norm_num) (by omega)
    have : (∑ _b : Fin 8, 1 * 2 ^ 7) = 1024 := by simp
    omega
  simp only [hterm]
  rw [coe_sum, hre, hnat]
  exact fptosi_natCast _ hbound

/-- A bit widened to 32 bits is the word of its value. -/
private theorem setWidth_bit (b : BitVec 1) : b.setWidth 32 = BitVec.ofNat 32 b.toNat :=
  (BitVec.ofNat_toNat 32 b).symm

/-- The same byte summed in 32-bit arithmetic: widened bits times the weights as words. -/
theorem word_byte (bits : Fin 8 → BitVec 1) :
    (∑ b : Fin 8, (bits b).setWidth 32 * BitVec.ofNat 32 (2 ^ (7 - b.val)))
      = BitVec.ofNat 32 (∑ b : Fin 8, (bits b).toNat * 2 ^ (7 - b.val)) := by
  -- the map from the naturals to 32-bit words respects sums and products
  simp only [setWidth_bit, ← BitVec.natCast_eq_ofNat]
  push_cast
  rfl

end Cert.Spec

end
-- ==== Proof.RefValue.lean ====
/-
  The reference computes the specification.

  Its program is the specification's definitions spelled out over whole arrays: per layer two matrix products (the bits,
  and one minus the bits, against the weights and one minus the weights), their sum, and a strict comparison with the
  threshold; then the 24 bits of a pixel regrouped as three bytes of eight, each bit widened to a word, multiplied by its
  power of two and summed in integer arithmetic; the result transposed to channels first; and that word, as a real,
  minus the image. Read index by index, every stage is the corresponding definition. The powers of two are built by
  repeated squaring of the constant 2 over the exponents 7, …, 0: eight closed words, evaluated once.
-/
import proofs.«112060_j11020886082300_1_alg».proof.Proof.RefRead
import proofs.«112060_j11020886082300_1_alg».proof.Proof.Spec
import proofs.«112060_j11020886082300_1_alg».proof.Proof.Law
import proofs.«112060_j11020886082300_1_alg».proof.Proof.Consts
import Idealize.ShloMosaic.Lib.ValueIdx
import Idealize.ShloMosaic.Lib.Pipeline.Value
import Idealize.ShloMosaic.PureOps.Reduce
import Mathlib.Data.BitVec

noncomputable section

open scoped BigOperators

namespace Cert.ReferenceIdeal.RefValue

open Idealize.ShloMosaic Idealize.ShloMosaic.ValueIdx Cert.ReferenceIdeal Cert.ReferenceIdeal.ReadP Cert.Spec

variable (x0 : (⟨S3x256x256, .f32⟩ : BufTy).Contents (Elt Ideal))
  (x1 : (⟨S16x1024, .i1⟩ : BufTy).Contents (Elt Ideal)) (x2 : (⟨S1024, .i32⟩ : BufTy).Contents (Elt Ideal))
  (x3 : (⟨S1024x1024, .i1⟩ : BufTy).Contents (Elt Ideal)) (x4 : (⟨S1024, .i32⟩ : BufTy).Contents (Elt Ideal))
  (x5 : (⟨S1024x24, .i1⟩ : BufTy).Contents (Elt Ideal)) (x6 : (⟨S24, .i32⟩ : BufTy).Contents (Elt Ideal))

/-! ## The three layers

  At pixel `n` and output `o` a layer's two matrix products run over the contraction index `k`: the left operand is read
  at `(n, k)`, the right at `(k, o)`, and the threshold, broadcast down the pixels, at `o`. With the literal one read as
  the real number 1 the sum of the two products is the agreement count, and the strict comparison is the neuron firing. -/

section Layer1

private theorem lidx40 (n : Fin 65536) (o : Fin 1024) (k : Fin 16) : lidx_main_v40 (ix2 n o) k = ix2 n k :=
  funext fun a => Fin.ext (by match a with | ⟨0, _⟩ => rfl | ⟨1, _⟩ => rfl)

private theorem ridx40 (n : Fin 65536) (o : Fin 1024) (k : Fin 16) : ridx_main_v40 (ix2 n o) k = ix2 k o :=
  funext fun a => Fin.ext (by match a with | ⟨0, _⟩ => rfl | ⟨1, _⟩ => rfl)

private theorem lidx45 (n : Fin 65536) (o : Fin 1024) (k : Fin 16) : lidx_main_v45 (ix2 n o) k = ix2 n k :=
  funext fun a => Fin.ext (by match a with | ⟨0, _⟩ => rfl | ⟨1, _⟩ => rfl)

private theorem ridx45 (n : Fin 65536) (o : Fin 1024) (k : Fin 16) : ridx_main_v45 (ix2 n o) k = ix2 k o :=
  funext fun a => Fin.ext (by match a with | ⟨0, _⟩ => rfl | ⟨1, _⟩ => rfl)

private theorem idx49 (n : Fin 65536) (o : Fin 1024) : idx_main_v48 (idx_main_v49 (ix2 n o)) = ix1 o :=
  funext fun a => Fin.ext (by match a with | ⟨0, _⟩ => rfl)

/-- The first comparison's bit at `(n, o)` is the first layer's neuron `o` at pixel `n`. -/
theorem layer1 (n : Fin 65536) (o : Fin 1024) :
    val_main_v50 (F := Ideal) x1 x2 (ix2 n o) = act1 (val_main_v37 (F := Ideal)) x1 x2 n o := by
  rw [val_main_v50_apply, val_main_v46_apply, val_main_v40_apply, val_main_v45_apply, val_main_v49_apply,
    val_main_v48_apply, val_main_v47_apply]
  simp only [val_main_v38_apply, val_main_v39_apply, val_main_v42_apply, val_main_v44_apply, val_main_v41_apply,
    val_main_v43_apply, val_main_cst_apply, val_main_cst_7_apply, lidx40, ridx40, lidx45, ridx45, idx49]
  generalize val_main_v37 (F := Ideal) = pos
  simp only [Ideal.ofBits_def, Consts.ofBits_one]
  rfl

end Layer1

section Layer2

private theorem lidx53 (n : Fin 65536) (o : Fin 1024) (k : Fin 1024) : lidx_main_v53 (ix2 n o) k = ix2 n k :=
  funext fun a => Fin.ext (by match a with | ⟨0, _⟩ => rfl | ⟨1, _⟩ => rfl)

private theorem ridx53 (n : Fin 65536) (o : Fin 1024) (k : Fin 1024) : ridx_main_v53 (ix2 n o) k = ix2 k o :=
  funext fun a => Fin.ext (by match a with | ⟨0, _⟩ => rfl | ⟨1, _⟩ => rfl)

private theorem lidx58 (n : Fin 65536) (o : Fin 1024) (k : Fin 1024) : lidx_main_v58 (ix2 n o) k = ix2 n k :=
  funext fun a => Fin.ext (by match a with | ⟨0, _⟩ => rfl | ⟨1, _⟩ => rfl)

private theorem ridx58 (n : Fin 65536) (o : Fin 1024) (k : Fin 1024) : ridx_main_v58 (ix2 n o) k = ix2 k o :=
  funext fun a => Fin.ext (by match a with | ⟨0, _⟩ => rfl | ⟨1, _⟩ => rfl)

private theorem idx62 (n : Fin 65536) (o : Fin 1024) : idx_main_v61 (idx_main_v62 (ix2 n o)) = ix1 o :=
  funext fun a => Fin.ext (by match a with | ⟨0, _⟩ => rfl)

/-- The second comparison's bit at `(n, o)` is the second layer's neuron, fed by the first layer's bits. -/
theorem layer2 (n : Fin 65536) (o : Fin 1024) :
    val_main_v63 (F := Ideal) x1 x2 x3 x4 (ix2 n o) = act2 (val_main_v37 (F := Ideal)) x1 x2 x3 x4 n o := by
  rw [val_main_v63_apply, val_main_v59_apply, val_main_v53_apply, val_main_v58_apply, val_main_v62_apply,
    val_main_v61_apply, val_main_v60_apply]
  simp only [val_main_v51_apply, val_main_v52_apply, val_main_v55_apply, val_main_v57_apply, val_main_v54_apply,
    val_main_v56_apply, val_main_cst_8_apply, val_main_cst_9_apply, lidx53, ridx53, lidx58, ridx58, idx62, layer1]
  generalize val_main_v37 (F := Ideal) = pos
  simp only [Ideal.ofBits_def, Consts.ofBits_one]
  rfl

end Layer2

section Layer3

private theorem lidx66 (n : Fin 65536) (o : Fin 24) (k : Fin 1024) : lidx_main_v66 (ix2 n o) k = ix2 n k :=
  funext fun a => Fin.ext (by match a with | ⟨0, _⟩ => rfl | ⟨1, _⟩ => rfl)

private theorem ridx66 (n : Fin 65536) (o : Fin 24) (k : Fin 1024) : ridx_main_v66 (ix2 n o) k = ix2 k o :=
  funext fun a => Fin.ext (by match a with | ⟨0, _⟩ => rfl | ⟨1, _⟩ => rfl)

private theorem lidx71 (n : Fin 65536) (o : Fin 24) (k : Fin 1024) : lidx_main_v71 (ix2 n o) k = ix2 n k :=
  funext fun a => Fin.ext (by match a with | ⟨0, _⟩ => rfl | ⟨1, _⟩ => rfl)

private theorem ridx71 (n : Fin 65536) (o : Fin 24) (k : Fin 1024) : ridx_main_v71 (ix2 n o) k = ix2 k o :=
  funext fun a => Fin.ext (by match a with | ⟨0, _⟩ => rfl | ⟨1, _⟩ => rfl)

private theorem idx75 (n : Fin 65536) (o : Fin 24) : idx_main_v74 (idx_main_v75 (ix2 n o)) = ix1 o :=
  funext fun a => Fin.ext (by match a with | ⟨0, _⟩ => rfl)

/-- The third comparison's bit at `(n, o)` is the third layer's neuron, one of a pixel's 24 bits. -/
theorem layer3 (n : Fin 65536) (o : Fin 24) :
    val_main_v76 (F := Ideal) x1 x2 x3 x4 x5 x6 (ix2 n o)
      = act3 (val_main_v37 (F := Ideal)) x1 x2 x3 x4 x5 x6 n o := by
  rw [val_main_v76_apply, val_main_v72_apply, val_main_v66_apply, val_main_v71_apply, val_main_v75_apply,
    val_main_v74_apply, val_main_v73_apply]
  simp only [val_main_v64_apply, val_main_v65_apply, val_main_v68_apply, val_main_v70_apply, val_main_v67_apply,
    val_main_v69_apply, val_main_cst_10_apply, val_main_cst_11_apply, lidx66, ridx66, lidx71, ridx71, idx75, layer2]
  generalize val_main_v37 (F := Ideal) = pos
  simp only [Ideal.ofBits_def, Consts.ofBits_one]
  rfl

end Layer3

/-! ## The weights

  The exponent of lane `b` is `7 − b`. Starting from 1, the chain multiplies by 2, 4, 16, 256, 65536 and 65536² (zero in
  32 bits) where the exponent's bit 0, 1, 2, 3, 4, 5 is set. An exponent below 8 has only its three low bits, so the
  result is `2^(7 − b)`. Each lane is a closed 32-bit computation. -/

/-- Lane `b` of the weights is `2^(7 − b)`. -/
theorem weights (b : Fin 8) : val_main_v133 (F := Ideal) (ix1 b) = BitVec.ofNat 32 (2 ^ (7 - b.val)) := by
  simp only [val_main_v133_apply, val_main_call6_v1_apply, val_main_v132_apply, val_main_v131_apply,
    val_main_v130_apply, val_main_v129_apply, val_main_v128_apply, val_main_v127_apply, val_main_v126_apply,
    val_main_v125_apply, val_main_call5_v1_apply, val_main_v124_apply, val_main_v123_apply, val_main_v122_apply,
    val_main_v121_apply, val_main_v120_apply, val_main_v119_apply, val_main_v118_apply, val_main_v117_apply,
    val_main_call4_v1_apply, val_main_v116_apply, val_main_v115_apply, val_main_v114_apply, val_main_v113_apply,
    val_main_v112_apply, val_main_v111_apply, val_main_v110_apply, val_main_v109_apply, val_main_call3_v1_apply,
    val_main_v108_apply, val_main_v107_apply, val_main_v106_apply, val_main_v105_apply, val_main_v104_apply,
    val_main_v103_apply, val_main_v102_apply, val_main_v101_apply, val_main_call2_v1_apply, val_main_v100_apply,
    val_main_v99_apply, val_main_v98_apply, val_main_v97_apply, val_main_v96_apply, val_main_v95_apply,
    val_main_v94_apply, val_main_v93_apply, val_main_call1_v1_apply, val_main_v92_apply, val_main_v91_apply,
    val_main_v90_apply, val_main_v89_apply, val_main_v88_apply, val_main_call0_v1_apply, val_main_call0_v0_apply,
    val_main_v87_apply, val_main_v86_apply, val_main_v85_apply, val_main_v84_apply, val_main_v83_apply,
    val_main_v82_apply, val_main_v81_apply, val_main_v80_apply, val_main_v79_apply, val_main_v78_apply,
    val_main_call6_v0_apply, val_main_call5_v0_apply, val_main_call4_v0_apply, val_main_call3_v0_apply,
    val_main_call2_v0_apply, val_main_call1_v0_apply, val_main_call6_c_apply, val_main_call5_c_apply,
    val_main_call4_c_apply, val_main_call3_c_apply, val_main_call2_c_apply, val_main_call1_c_apply,
    val_main_c_12_apply, val_main_c_13_apply, val_main_c_14_apply, val_main_c_15_apply, val_main_c_16_apply,
    val_main_c_17_apply, val_main_c_18_apply, val_main_c_19_apply, val_main_c_20_apply, val_main_c_21_apply,
    val_main_c_22_apply, val_main_c_23_apply, val_main_c_24_apply, val_main_c_25_apply, val_main_c_26_apply,
    val_main_c_27_apply, val_main_c_28_apply, val_main_c_29_apply, val_main_c_30_apply, val_main_c_31_apply,
    val_main_c_32_apply]
  fin_cases b <;> decide

/-! ## The bytes

  The integer sum over the last axis, from zero, is the sum over the eight bit positions. The regrouped bit at
  `(h, w, c, b)` is bit `8·c + b` of pixel `256·h + w`, because `((256·h + w)·3 + c)·8 + b = (256·h + w)·24 + (8·c + b)`
  with `8·c + b < 24`. -/

section Bytes

/-- An integer sum from zero over the last axis of a `256 × 256 × 3 × 8` array, read at `(h, w, c)`. -/
private theorem sum_last_axis (y : S256x256x3x8.Idx → BitVec 32) (init : S_.Idx → BitVec 32)
    (hr' : S256x256x3x8.ReducesTo [3] S256x256x3) (hu : 0 < S_.numel) (hinit : ∀ i, init i = 0#32)
    (h w : Fin 256) (c : Fin 3) :
    Host.reduce IntOp.addi y init hr' hu (ix3 h w c) = ∑ b : Fin 8, y (ix4 h w c b) := by
  have hr : S256x256x3x8.Reduces [3] S256x256x3 := by decide
  have hl : ∀ b : Fin 8, hr.lift (ix3 h w c) b = ix4 h w c b := fun b => funext fun a => Fin.ext (by
    match a with
    | ⟨0, _⟩ => rfl
    | ⟨1, _⟩ => rfl
    | ⟨2, _⟩ => rfl
    | ⟨3, _⟩ => rfl)
  rw [Host.reduce_eq_fold_single IntOp.addi y init hr' hr hu (ix3 h w c), hinit]
  refine ((Finset.sum_eq_fold (Finset.univ : Finset (Fin 8)) _).symm).trans ?_
  exact Finset.sum_congr rfl fun b _ => congrArg y (hl b)

private theorem v141_read (h w : Fin 256) (c : Fin 3) :
    val_main_v141 (F := Ideal) x1 x2 x3 x4 x5 x6 (ix3 h w c)
      = ∑ b : Fin 8, val_main_v140 (F := Ideal) x1 x2 x3 x4 x5 x6 (ix4 h w c b) := by
  unfold val_main_v141
  generalize val_main_v140 (F := Ideal) x1 x2 x3 x4 x5 x6 = y
  exact sum_last_axis y _ _ _ (fun i => val_main_c_34_apply i) h w c

private theorem idx142 (c : Fin 3) (h w : Fin 256) : idx_main_v142 (ix3 c h w) = ix3 h w c :=
  funext fun a => Fin.ext (by match a with | ⟨0, _⟩ => rfl | ⟨1, _⟩ => rfl | ⟨2, _⟩ => rfl)

private theorem idx139 (h w : Fin 256) (c : Fin 3) (b : Fin 8) :
    idx_main_v138 (idx_main_v139 (ix4 h w c b)) = ix1 b :=
  funext fun a => Fin.ext (by match a with | ⟨0, _⟩ => rfl)

private theorem idx77 (h w : Fin 256) (c : Fin 3) (b : Fin 8) :
    idx_main_v77 (ix4 h w c b) = ix2 (pixel h w) (byteBit c b) :=
  funext fun a => Fin.ext (by
    have hh := h.isLt
    have hw := w.isLt
    have hc := c.isLt
    have hb := b.isLt
    match a with
    | ⟨0, _⟩ =>
      show (((h.val * 256 + w.val) * 3 + c.val) * 8 + b.val) / 24 = h.val * 256 + w.val
      omega
    | ⟨1, _⟩ =>
      show (((h.val * 256 + w.val) * 3 + c.val) * 8 + b.val) % 24 = c.val * 8 + b.val
      omega)

end Bytes

/-- The reference's first result is the bytes, channels first. -/
theorem words_eq :
    val_main_v142 (F := Ideal) x1 x2 x3 x4 x5 x6 = words (val_main_v37 (F := Ideal)) x1 x2 x3 x4 x5 x6 := by
  funext j
  obtain ⟨c, h, w, rfl⟩ : ∃ (c : Fin 3) (h w : Fin 256), j = ix3 c h w := ⟨j 0, j 1, j 2, eq_ix3 j⟩
  rw [val_main_v142_apply, idx142, v141_read]
  simp only [val_main_v140_apply, val_main_v137_apply, val_main_v139_apply, val_main_v138_apply, val_main_v77_apply,
    idx139, idx77, weights, layer3]
  generalize val_main_v37 (F := Ideal) = pos
  exact word_byte fun b => act3 pos x1 x2 x3 x4 x5 x6 (pixel h w) (byteBit c b)

/-- Its second result is the bytes minus the image. -/
theorem err_eq :
    val_main_v144 (F := Ideal) x0 x1 x2 x3 x4 x5 x6 = err (val_main_v37 (F := Ideal)) x1 x2 x3 x4 x5 x6 x0 := by
  funext j
  rw [val_main_v144_apply, val_main_v143_apply, words_eq]
  unfold err
  generalize words (val_main_v37 (F := Ideal)) x1 x2 x3 x4 x5 x6 = W
  rfl

end Cert.ReferenceIdeal.RefValue

end
-- ==== Proof.KerLayers.lean ====
/-
  One row of the kernel's body, read at an index.

  The body's arithmetic is a pure function of the blocks it loads. Row `p` of its two stored values depends only on row
  `p` of the position block: each layer is a matrix product of that row with the weights, the row's popcount, a
  comparison, and the next layer takes the comparison's bits as its row. When the blocks hold, at row `p`, the bits of
  pixel `n` (the weights, their column popcounts and the thresholds being whole arrays), the stored word at `(p, c)` is
  byte `c` of pixel `n`, and the stored float is that byte minus the image block's entry.

  Per layer: the product sum and the two popcounts are the agreement count (Law's `agree_eq_double_dot`), so the
  comparison is the layer's `fire`; the bit goes back to a float through a 32-bit word (`word_of_bit`). The last product,
  with the powers of two, converted to an integer, is the byte (`fptosi_byte`).

  Order of the lemmas: each vector operation of a layer read at an entry (the matrix product as a sum over the contracted
  coordinate, the row sum, the column cast and the two broadcasts); then one layer at a row, in its two forms (the row
  given as floats, or as the previous layer's comparison bits) with the comparison and the closing byte; then the two
  payloads, the second stated over any first payload that holds the right row, and the two results.
-/
import proofs.«112060_j11020886082300_1_alg».proof.Proof.Gen.KernelIdeal.Skeleton
import proofs.«112060_j11020886082300_1_alg».proof.Proof.Spec
import proofs.«112060_j11020886082300_1_alg».proof.Proof.Law
import proofs.«112060_j11020886082300_1_alg».proof.Proof.Consts
import Idealize.ShloMosaic.Lib.ValueIdx
import Idealize.ShloMosaic.Lib.ValueLayout
import Idealize.ShloMosaic.Lib.Pipeline.Value
import Idealize.ShloMosaic.PureOps.Ideal.Laws
import Idealize.ShloMosaic.Lib.StackMember

noncomputable section

open scoped BigOperators

namespace Cert.KernelIdeal.Layers

open Idealize.ShloMosaic Idealize.ShloMosaic.ValueIdx Cert.KernelIdeal Cert.KernelIdeal.Gen Cert.Spec

/-! ## The vector operations of one layer, read at an entry -/

/-- A plain matrix product into the zero splat, read at an entry, is the sum over the contracted coordinate. -/
theorem matmul_plain_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant (F := Ideal) ⟨2, ![m, n]⟩ .f32 0x00000000#32) (ix2 a b)
      = ∑ c : Fin k, A (ix2 a c) * B (ix2 c b) :=
  (Ideal.matmul_constant_zero_apply _ prec A B (ix2 a b)).trans
    ((Ideal.dotGeneral_apply _ prec HostSchedule.single A B (ix2 a b)).symm.trans
      (StackMember.dotGeneral_plain_apply prec A B a b))

/-- A sum along the rows of a matrix, read at a row, is the sum of that row's entries. -/
theorem rowSum_apply {a K : Nat} {φ : FTy} (src : FVec Ideal ⟨2, ![a, K]⟩ φ) (acc : BitVec φ.bits)
    (h : (⟨2, ![a, K]⟩ : Shape).Reduces [1] ⟨1, ![a]⟩) (hφ : FKind.Formats φ) (hacc : acc = FKind.add.neutral φ hφ)
    (p : Fin a) :
    multiReduction .add [1] ⟨1, ![a]⟩ src acc h hφ hacc (ix1 p) = ∑ k : Fin K, src (ix2 p k) := by
  refine (Ideal.multiReduction_add_single src acc h hφ hacc (ix1 p)).trans ?_
  refine Finset.sum_congr rfl fun k _ => congrArg src ?_
  funext c
  refine Fin.ext ?_
  match c with
  | ⟨0, _⟩ => rfl
  | ⟨1, _⟩ => rfl

section Layout
variable {α : Type}

/-- A vector cast to a one-column matrix reads, at `(p, u)`, the vector at `p`. -/
theorem shapeCast_a_a1_apply {a : Nat} (v : (⟨1, ![a]⟩ : Shape).Idx → α) (h : (⟨1, ![a]⟩ : Shape).ShapeCasts ⟨2, ![a, 1]⟩)
    (p : Fin a) (u : Fin 1) : shapeCast ⟨2, ![a, 1]⟩ v h (ix2 p u) = v (ix1 p) :=
  shapeCast_apply v h _ _ (by
    have hu : u.val = 0 := by omega
    rw [Shape.rowMajor_val_two, Shape.rowMajor_val_one]
    show p.val = p.val * 1 + u.val
    rw [hu, Nat.mul_one, Nat.add_zero])

/-- A one-column matrix broadcast along its rows reads, at `(p, q)`, the column at `p`. -/
theorem broadcastTo_a1_ab_apply {a b : Nat} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

end Layout

/-! ## One layer at a row -/

/-- One layer's count before the column popcount is taken off, when the row is given as floats that are bits: twice the
    product sum, plus the width, minus the row's popcount. -/
theorem layer_head {a K b : Nat} (X : FVec Ideal ⟨2, ![a, K]⟩ .bf16) (M : FVec Ideal ⟨2, ![K, b]⟩ .bf16) (c2 cK : Ideal .f32)
    (hx : (⟨2, ![a, K]⟩ : Shape).ShapeCasts ⟨2, ![a, K]⟩) (hm : (⟨2, ![K, b]⟩ : Shape).ShapeCasts ⟨2, ![K, b]⟩)
    (hlt : FTy.bits .bf16 < FTy.bits .f32)
    (h1 : (⟨2, ![a, K]⟩ : Shape).Reduces [1] ⟨1, ![a]⟩) (hφ : FKind.Formats .f32)
    (hacc : (0x00000000#32 : BitVec 32) = FKind.add.neutral .f32 hφ)
    (h2 : (⟨1, ![a]⟩ : Shape).ShapeCasts ⟨2, ![a, 1]⟩) (h3 : (⟨2, ![a, 1]⟩ : Shape).Broadcasts ⟨2, ![a, b]⟩)
    (bits mask : Fin K → BitVec 1) (p : Fin a) (q : Fin b)
    (hX : ∀ k, X (ix2 p k) = bitVal (bits k)) (hM : ∀ k, M (ix2 k q) = bitVal (mask k)) :
    subf (addf (mulf (broadcast ⟨2, ![a, b]⟩ c2)
          (matmul (DotDims.plain a K b) none (shapeCast ⟨2, ![a, K]⟩ X hx) (shapeCast ⟨2, ![K, b]⟩ M hm)
            (constant (F := Ideal) ⟨2, ![a, b]⟩ .f32 0x00000000#32)))
        (broadcast ⟨2, ![a, b]⟩ cK))
      (broadcastTo ⟨2, ![a, b]⟩ (shapeCast ⟨2, ![a, 1]⟩
        (multiReduction .add [1] ⟨1, ![a]⟩ (extf .f32 (shapeCast ⟨2, ![a, K]⟩ X hx) hlt) 0x00000000#32 h1 hφ hacc) h2) h3) (ix2 p q)
      = c2 * (∑ k : Fin K, bitVal (bits k) * bitVal (mask k)) + cK - ∑ k : Fin K, bitVal (bits k) := by
  have e1 := matmul_plain_apply none (shapeCast ⟨2, ![a, K]⟩ X hx) (shapeCast ⟨2, ![K, b]⟩ M hm) p q
  have e2 : broadcastTo ⟨2, ![a, b]⟩ (shapeCast ⟨2, ![a, 1]⟩
        (multiReduction .add [1] ⟨1, ![a]⟩ (extf .f32 (shapeCast ⟨2, ![a, K]⟩ X hx) hlt) 0x00000000#32 h1 hφ hacc) h2) h3 (ix2 p q)
      = ∑ k : Fin K, (extf .f32 (shapeCast ⟨2, ![a, K]⟩ X hx) hlt : FVec Ideal ⟨2, ![a, K]⟩ .f32) (ix2 p k) :=
    (broadcastTo_a1_ab_apply _ h3 p q).trans ((shapeCast_a_a1_apply _ h2 p 0).trans (rowSum_apply _ _ h1 hφ hacc p))
  show c2 * _ + cK - _ = _
  rw [e1, e2, shapeCast_self, shapeCast_self]
  have s1 : ∑ c : Fin K, X (ix2 p c) * M (ix2 c q) = ∑ k : Fin K, bitVal (bits k) * bitVal (mask k) :=
    Finset.sum_congr rfl fun k _ => by rw [hX k, hM k]
  have s2 : ∑ k : Fin K, (extf .f32 X hlt : FVec Ideal ⟨2, ![a, K]⟩ .f32) (ix2 p k) = ∑ k : Fin K, bitVal (bits k) :=
    Finset.sum_congr rfl fun k _ => hX k
  rw [s1, s2]

/-- The same count when the row is the previous layer's comparison bits, turned into floats through a 32-bit word. -/
theorem layer_tail {a K b : Nat} (B : IVec ⟨2, ![a, K]⟩ 1) (M : FVec Ideal ⟨2, ![K, b]⟩ .bf16) (c2 cK : Ideal .f32)
    (h32 : 1 < 32) (hm : (⟨2, ![K, b]⟩ : Shape).ShapeCasts ⟨2, ![K, b]⟩)
    (hlt : FTy.bits .bf16 < FTy.bits .f32)
    (h1 : (⟨2, ![a, K]⟩ : Shape).Reduces [1] ⟨1, ![a]⟩) (hφ : FKind.Formats .f32)
    (hacc : (0x00000000#32 : BitVec 32) = FKind.add.neutral .f32 hφ)
    (h2 : (⟨1, ![a]⟩ : Shape).ShapeCasts ⟨2, ![a, 1]⟩) (h3 : (⟨2, ![a, 1]⟩ : Shape).Broadcasts ⟨2, ![a, b]⟩)
    (bits mask : Fin K → BitVec 1) (p : Fin a) (q : Fin b)
    (hB : ∀ k, B (ix2 p k) = bits k) (hM : ∀ k, M (ix2 k q) = bitVal (mask k)) :
    subf (addf (mulf (broadcast ⟨2, ![a, b]⟩ c2)
          (matmul (DotDims.plain a K b) none (truncf .bf16 (sitofp (F := Ideal) .f32 (extui 32 B h32)) hlt) (shapeCast ⟨2, ![K, b]⟩ M hm)
            (constant (F := Ideal) ⟨2, ![a, b]⟩ .f32 0x00000000#32)))
        (broadcast ⟨2, ![a, b]⟩ cK))
      (broadcastTo ⟨2, ![a, b]⟩ (shapeCast ⟨2, ![a, 1]⟩
        (multiReduction .add [1] ⟨1, ![a]⟩ (sitofp (F := Ideal) .f32 (extui 32 B h32)) 0x00000000#32 h1 hφ hacc) h2) h3) (ix2 p q)
      = c2 * (∑ k : Fin K, bitVal (bits k) * bitVal (mask k)) + cK - ∑ k : Fin K, bitVal (bits k) := by
  have hF : ∀ k : Fin K, (sitofp (F := Ideal) .f32 (extui 32 B h32) : FVec Ideal ⟨2, ![a, K]⟩ .f32) (ix2 p k) = bitVal (bits k) :=
    fun k => (word_of_bit (B (ix2 p k))).trans (congrArg bitVal (hB k))
  have e1 := matmul_plain_apply none (truncf .bf16 (sitofp (F := Ideal) .f32 (extui 32 B h32)) hlt) (shapeCast ⟨2, ![K, b]⟩ M hm) p q
  have e2 : broadcastTo ⟨2, ![a, b]⟩ (shapeCast ⟨2, ![a, 1]⟩
        (multiReduction .add [1] ⟨1, ![a]⟩ (sitofp (F := Ideal) .f32 (extui 32 B h32)) 0x00000000#32 h1 hφ hacc) h2) h3 (ix2 p q)
      = ∑ k : Fin K, (sitofp (F := Ideal) .f32 (extui 32 B h32) : FVec Ideal ⟨2, ![a, K]⟩ .f32) (ix2 p k) :=
    (broadcastTo_a1_ab_apply _ h3 p q).trans ((shapeCast_a_a1_apply _ h2 p 0).trans (rowSum_apply _ _ h1 hφ hacc p))
  show c2 * _ + cK - _ = _
  rw [e1, e2, shapeCast_self]
  have s1 : ∑ c : Fin K, (truncf .bf16 (sitofp (F := Ideal) .f32 (extui 32 B h32)) hlt : FVec Ideal ⟨2, ![a, K]⟩ .bf16) (ix2 p c) * M (ix2 c q)
      = ∑ k : Fin K, bitVal (bits k) * bitVal (mask k) :=
    Finset.sum_congr rfl fun k _ => by
      show (sitofp (F := Ideal) .f32 (extui 32 B h32) : FVec Ideal ⟨2, ![a, K]⟩ .f32) (ix2 p k) * M (ix2 k q) = _
      rw [hF k, hM k]
  have s2 : ∑ k : Fin K, (sitofp (F := Ideal) .f32 (extui 32 B h32) : FVec Ideal ⟨2, ![a, K]⟩ .f32) (ix2 p k) = ∑ k : Fin K, bitVal (bits k) :=
    Finset.sum_congr rfl fun k _ => hF k
  rw [s1, s2]

/-- Taking the column popcount off that count gives the agreement count; comparing it with the threshold is the neuron. -/
theorem fire_at {a b K : Nat} (V : FVec Ideal ⟨2, ![a, b]⟩ .f32) (cs th : FVec Ideal ⟨2, ![1, b]⟩ .f32)
    (h : (⟨2, ![1, b]⟩ : Shape).ShapeCasts ⟨2, ![1, b]⟩) (h' : (⟨2, ![1, b]⟩ : Shape).Broadcasts ⟨2, ![a, b]⟩)
    (x m : Fin K → BitVec 1) (t : BitVec 32) (p : Fin a) (q : Fin b)
    (hV : V (ix2 p q) = ((2 : ℝ) : EReal) * (∑ k, bitVal (x k) * bitVal (m k)) + ((K : ℝ) : EReal) - ∑ k, bitVal (x k))
    (hcs : cs (ix2 (0 : Fin 1) q) = ∑ k, bitVal (m k)) (hth : th (ix2 (0 : Fin 1) q) = ((t.toInt : ℝ) : EReal)) :
    cmpf .ogt (subf V (broadcastTo ⟨2, ![a, b]⟩ (shapeCast ⟨2, ![1, b]⟩ cs h) h'))
        (broadcastTo ⟨2, ![a, b]⟩ (shapeCast ⟨2, ![1, b]⟩ th h) h') (ix2 p q)
      = fire x m t := by
  have e : ∀ w : FVec Ideal ⟨2, ![1, b]⟩ .f32,
      broadcastTo ⟨2, ![a, b]⟩ (shapeCast ⟨2, ![1, b]⟩ w h) h' (ix2 p q) = w (ix2 (0 : Fin 1) q) := fun w => by
    rw [shapeCast_self]; exact broadcastTo_1b_ab_apply w h' p q
  show Ideal.cmp .ogt (V (ix2 p q) - _) _ = _
  rw [e cs, e th, hV, hcs, hth, agree_eq_double_dot]
  rfl

/-- The last product, with the powers of two, converted to an integer word, is the byte. -/
theorem byte_at {a : Nat} (B : IVec ⟨2, ![a, 24]⟩ 1) (W : FVec Ideal ⟨2, ![24, 3]⟩ .bf16)
    (h32 : 1 < 32) (hw : (⟨2, ![24, 3]⟩ : Shape).ShapeCasts ⟨2, ![24, 3]⟩) (hlt : FTy.bits .bf16 < FTy.bits .f32)
    (bits : Fin 24 → BitVec 1) (p : Fin a) (c : Fin 3)
    (hB : ∀ j, B (ix2 p j) = bits j)
    (hW : ∀ j : Fin 24, W (ix2 j c) = if j.val / 8 = c.val then (((2 : ℝ) ^ (7 - j.val % 8) : ℝ) : EReal) else 0) :
    fptosi 32 (matmul (DotDims.plain a 24 3) none (truncf .bf16 (sitofp (F := Ideal) .f32 (extui 32 B h32)) hlt) (shapeCast ⟨2, ![24, 3]⟩ W hw)
        (constant (F := Ideal) ⟨2, ![a, 3]⟩ .f32 0x00000000#32)) (ix2 p c)
      = BitVec.ofNat 32 (∑ b : Fin 8, (bits (byteBit c b)).toNat * 2 ^ (7 - b.val)) := by
  have e1 := matmul_plain_apply none (truncf .bf16 (sitofp (F := Ideal) .f32 (extui 32 B h32)) hlt) (shapeCast ⟨2, ![24, 3]⟩ W hw) p c
  show Ideal.fptosi 32 _ = _
  rw [e1, shapeCast_self]
  have s1 : ∑ j : Fin 24, (truncf .bf16 (sitofp (F := Ideal) .f32 (extui 32 B h32)) hlt : FVec Ideal ⟨2, ![a, 24]⟩ .bf16) (ix2 p j) * W (ix2 j c)
      = ∑ j : Fin 24, bitVal (bits j) * W (ix2 j c) :=
    Finset.sum_congr rfl fun j _ => congrArg (· * W (ix2 j c)) ((word_of_bit (B (ix2 p j))).trans (congrArg bitVal (hB j)))
  rw [s1]
  exact fptosi_byte bits c (fun j => W (ix2 j c)) hW

/-! ## The body's payloads at a row -/

variable (pos : IVec ⟨2, ![65536, 16]⟩ 1)
  (mask0 : IVec ⟨2, ![16, 1024]⟩ 1) (thr0 : IVec ⟨1, ![1024]⟩ 32)
  (mask1 : IVec ⟨2, ![1024, 1024]⟩ 1) (thr1 : IVec ⟨1, ![1024]⟩ 32)
  (mask2 : IVec ⟨2, ![1024, 24]⟩ 1) (thr2 : IVec ⟨1, ![24]⟩ 32)
  (image : FVec Ideal ⟨3, ![3, 256, 256]⟩ .f32)

variable (x0 : Vec Ideal S512x16 .bf16) (m0 : Vec Ideal S16x1024 .bf16) (cs0 th0 : Vec Ideal S1x1024 .f32)
  (m1 : Vec Ideal S1024x1024 .bf16) (cs1 th1 : Vec Ideal S1x1024 .f32)
  (m2 : Vec Ideal S1024x24 .bf16) (cs2 th2 : Vec Ideal S1x24 .f32)
  (wt : Vec Ideal S24x3 .bf16) (img : Vec Ideal S512x3 .f32)

/-- The literal two. -/
theorem lit_two : (FloatOps.ofBits .f32 0x40000000#32 : Ideal .f32) = ((2 : ℝ) : EReal) := Cert.Consts.ofBits_two
/-- The literal sixteen is the first layer's width. -/
theorem lit_16 : (FloatOps.ofBits .f32 0x41800000#32 : Ideal .f32) = (((16 : ℕ) : ℝ) : EReal) :=
  Cert.Consts.ofBits_16.trans (by norm_num)
/-- The literal 1024 is the later layers' width. -/
theorem lit_1024 : (FloatOps.ofBits .f32 0x44800000#32 : Ideal .f32) = (((1024 : ℕ) : ℝ) : EReal) :=
  Cert.Consts.ofBits_1024.trans (by norm_num)

/-- The first payload at row `p`: the first layer's bits of pixel `n`, then the second layer's count before its column
    popcount is taken off. -/
theorem pay2_at (n : Fin 65536) (p : Fin 512)
    (hx0 : ∀ k : Fin 16, x0 (ix2 p k) = bitVal (pos (ix2 n k)))
    (hm0 : ∀ (k : Fin 16) (o : Fin 1024), m0 (ix2 k o) = bitVal (mask0 (ix2 k o)))
    (hcs0 : ∀ o : Fin 1024, cs0 (ix2 (0 : Fin 1) o) = ∑ k : Fin 16, bitVal (mask0 (ix2 k o)))
    (hth0 : ∀ o : Fin 1024, th0 (ix2 (0 : Fin 1) o) = (((thr0 (ix1 o)).toInt : ℝ) : EReal))
    (hm1 : ∀ (k : Fin 1024) (o : Fin 1024), m1 (ix2 k o) = bitVal (mask1 (ix2 k o)))
    (q : Fin 1024) :
    k0_pay2 (F := Ideal) x0 m0 cs0 th0 m1 (ix2 p q)
      = ((2 : ℝ) : EReal) * (∑ k : Fin 1024, bitVal (act1 pos mask0 thr0 n k) * bitVal (mask1 (ix2 k q)))
          + (((1024 : ℕ) : ℝ) : EReal) - ∑ k : Fin 1024, bitVal (act1 pos mask0 thr0 n k) := by
  unfold k0_pay2
  refine (layer_tail (a := 512) (K := 1024) (b := 1024) _ m1 _ _ _ _ _ _ _ _ _ _ (act1 pos mask0 thr0 n)
    (fun k => mask1 (ix2 k q)) p q (fun k => ?_) (fun k => hm1 k q)).trans ?_
  · refine fire_at (K := 16) _ cs0 th0 _ _ (fun k' => pos (ix2 n k')) (fun k' => mask0 (ix2 k' k)) (thr0 (ix1 k)) p k ?_
      (hcs0 k) (hth0 k)
    refine (layer_head (a := 512) (K := 16) (b := 1024) x0 m0 _ _ _ _ _ _ _ _ _ _ (fun k' => pos (ix2 n k'))
      (fun k' => mask0 (ix2 k' k)) p k hx0 (fun k' => hm0 k' k)).trans ?_
    rw [lit_two, lit_16]
  · rw [lit_two, lit_1024]

/-- The second payload at row `p`, over any first payload that holds, at row `p`, the second layer's count of pixel `n`
    before the column popcount: the second and third layers' bits, then the byte. -/
theorem pay3_at (v37 : FVec Ideal S512x1024 .f32) (n : Fin 65536) (p : Fin 512) (c : Fin 3)
    (hv37 : ∀ q : Fin 1024, v37 (ix2 p q)
      = ((2 : ℝ) : EReal) * (∑ k : Fin 1024, bitVal (act1 pos mask0 thr0 n k) * bitVal (mask1 (ix2 k q)))
          + (((1024 : ℕ) : ℝ) : EReal) - ∑ k : Fin 1024, bitVal (act1 pos mask0 thr0 n k))
    (hcs1 : ∀ o : Fin 1024, cs1 (ix2 (0 : Fin 1) o) = ∑ k : Fin 1024, bitVal (mask1 (ix2 k o)))
    (hth1 : ∀ o : Fin 1024, th1 (ix2 (0 : Fin 1) o) = (((thr1 (ix1 o)).toInt : ℝ) : EReal))
    (hm2 : ∀ (k : Fin 1024) (o : Fin 24), m2 (ix2 k o) = bitVal (mask2 (ix2 k o)))
    (hcs2 : ∀ o : Fin 24, cs2 (ix2 (0 : Fin 1) o) = ∑ k : Fin 1024, bitVal (mask2 (ix2 k o)))
    (hth2 : ∀ o : Fin 24, th2 (ix2 (0 : Fin 1) o) = (((thr2 (ix1 o)).toInt : ℝ) : EReal))
    (hwt : ∀ (j : Fin 24) (c' : Fin 3), wt (ix2 j c') = if j.val / 8 = c'.val then (((2 : ℝ) ^ (7 - j.val % 8) : ℝ) : EReal) else 0) :
    k0_pay3 (F := Ideal) v37 cs1 th1 m2 cs2 th2 wt (ix2 p c) = byteWord pos mask0 thr0 mask1 thr1 mask2 thr2 n c := by
  unfold k0_pay3
  refine (byte_at (a := 512) _ wt _ _ _ (act3 pos mask0 thr0 mask1 thr1 mask2 thr2 n) p c (fun j => ?_)
    (fun j => hwt j c)).trans rfl
  refine fire_at (K := 1024) _ cs2 th2 _ _ (fun k => act2 pos mask0 thr0 mask1 thr1 n k) (fun k => mask2 (ix2 k j))
    (thr2 (ix1 j)) p j ?_ (hcs2 j) (hth2 j)
  refine (layer_tail (a := 512) (K := 1024) (b := 24) _ m2 _ _ _ _ _ _ _ _ _ _ (act2 pos mask0 thr0 mask1 thr1 n)
    (fun k => mask2 (ix2 k j)) p j (fun k => ?_) (fun k => hm2 k j)).trans ?_
  · exact fire_at (K := 1024) v37 cs1 th1 _ _ (fun k' => act1 pos mask0 thr0 n k') (fun k' => mask1 (ix2 k' k))
      (thr1 (ix1 k)) p k (hv37 k) (hcs1 k) (hth1 k)
  · rw [lit_two, lit_1024]

/-- The stored word at row `p`, channel `c` is byte `c` of the pixel whose bits row `p` holds. -/
theorem words_at (n : Fin 65536) (p : Fin 512) (c : Fin 3)
    (hx0 : ∀ k : Fin 16, x0 (ix2 p k) = bitVal (pos (ix2 n k)))
    (hm0 : ∀ (k : Fin 16) (o : Fin 1024), m0 (ix2 k o) = bitVal (mask0 (ix2 k o)))
    (hcs0 : ∀ o : Fin 1024, cs0 (ix2 (0 : Fin 1) o) = ∑ k : Fin 16, bitVal (mask0 (ix2 k o)))
    (hth0 : ∀ o : Fin 1024, th0 (ix2 (0 : Fin 1) o) = (((thr0 (ix1 o)).toInt : ℝ) : EReal))
    (hm1 : ∀ (k : Fin 1024) (o : Fin 1024), m1 (ix2 k o) = bitVal (mask1 (ix2 k o)))
    (hcs1 : ∀ o : Fin 1024, cs1 (ix2 (0 : Fin 1) o) = ∑ k : Fin 1024, bitVal (mask1 (ix2 k o)))
    (hth1 : ∀ o : Fin 1024, th1 (ix2 (0 : Fin 1) o) = (((thr1 (ix1 o)).toInt : ℝ) : EReal))
    (hm2 : ∀ (k : Fin 1024) (o : Fin 24), m2 (ix2 k o) = bitVal (mask2 (ix2 k o)))
    (hcs2 : ∀ o : Fin 24, cs2 (ix2 (0 : Fin 1) o) = ∑ k : Fin 1024, bitVal (mask2 (ix2 k o)))
    (hth2 : ∀ o : Fin 24, th2 (ix2 (0 : Fin 1) o) = (((thr2 (ix1 o)).toInt : ℝ) : EReal))
    (hwt : ∀ (j : Fin 24) (c' : Fin 3), wt (ix2 j c') = if j.val / 8 = c'.val then (((2 : ℝ) ^ (7 - j.val % 8) : ℝ) : EReal) else 0) :
    k0_pay3 (F := Ideal) (k0_pay2 (F := Ideal) x0 m0 cs0 th0 m1) cs1 th1 m2 cs2 th2 wt (ix2 p c)
      = byteWord pos mask0 thr0 mask1 thr1 mask2 thr2 n c :=
  pay3_at pos mask0 thr0 mask1 thr1 mask2 thr2 cs1 th1 m2 cs2 th2 wt (k0_pay2 (F := Ideal) x0 m0 cs0 th0 m1) n p c
    (pay2_at pos mask0 thr0 mask1 x0 m0 cs0 th0 m1 n p hx0 hm0 hcs0 hth0 hm1) hcs1 hth1 hm2 hcs2 hth2 hwt

/-- The stored float there is that byte, as a real, minus the image block's entry. -/
theorem err_at (n : Fin 65536) (p : Fin 512) (c : Fin 3)
    (hx0 : ∀ k : Fin 16, x0 (ix2 p k) = bitVal (pos (ix2 n k)))
    (hm0 : ∀ (k : Fin 16) (o : Fin 1024), m0 (ix2 k o) = bitVal (mask0 (ix2 k o)))
    (hcs0 : ∀ o : Fin 1024, cs0 (ix2 (0 : Fin 1) o) = ∑ k : Fin 16, bitVal (mask0 (ix2 k o)))
    (hth0 : ∀ o : Fin 1024, th0 (ix2 (0 : Fin 1) o) = (((thr0 (ix1 o)).toInt : ℝ) : EReal))
    (hm1 : ∀ (k : Fin 1024) (o : Fin 1024), m1 (ix2 k o) = bitVal (mask1 (ix2 k o)))
    (hcs1 : ∀ o : Fin 1024, cs1 (ix2 (0 : Fin 1) o) = ∑ k : Fin 1024, bitVal (mask1 (ix2 k o)))
    (hth1 : ∀ o : Fin 1024, th1 (ix2 (0 : Fin 1) o) = (((thr1 (ix1 o)).toInt : ℝ) : EReal))
    (hm2 : ∀ (k : Fin 1024) (o : Fin 24), m2 (ix2 k o) = bitVal (mask2 (ix2 k o)))
    (hcs2 : ∀ o : Fin 24, cs2 (ix2 (0 : Fin 1) o) = ∑ k : Fin 1024, bitVal (mask2 (ix2 k o)))
    (hth2 : ∀ o : Fin 24, th2 (ix2 (0 : Fin 1) o) = (((thr2 (ix1 o)).toInt : ℝ) : EReal))
    (hwt : ∀ (j : Fin 24) (c' : Fin 3), wt (ix2 j c') = if j.val / 8 = c'.val then (((2 : ℝ) ^ (7 - j.val % 8) : ℝ) : EReal) else 0)
    (himg : img (ix2 p c) = image (ix3 c (pixRow n) (pixCol n))) :
    k0_pay1 (F := Ideal) (k0_pay4 (F := Ideal) (k0_pay2 (F := Ideal) x0 m0 cs0 th0 m1) cs1 th1 m2 cs2 th2 wt) img (ix2 p c)
      = errFlat pos mask0 thr0 mask1 thr1 mask2 thr2 image (ix2 n c) := by
  have hw := words_at pos mask0 thr0 mask1 thr1 mask2 thr2 x0 m0 cs0 th0 m1 cs1 th1 m2 cs2 th2 wt n p c
    hx0 hm0 hcs0 hth0 hm1 hcs1 hth1 hm2 hcs2 hth2 hwt
  unfold k0_pay1 k0_pay4
  show (((k0_pay3 (F := Ideal) (k0_pay2 (F := Ideal) x0 m0 cs0 th0 m1) cs1 th1 m2 cs2 th2 wt (ix2 p c)).toInt : ℝ) : EReal)
      - shapeCast S512x3 img shapeCasts_S512x3_S512x3 (ix2 p c) = _
  rw [hw, shapeCast_self, himg]
  rfl

end Cert.KernelIdeal.Layers

end
-- ==== Proof.KerHost.lean ====
/-
  What the arrays hold when the kernel's region is entered.

  Before the region the program makes, by host operations on its arguments: the position bits as floats; the image with
  channels last and one pixel per row, so that pixel `n`, channel `ch` is the image at `(ch, n / 256, n % 256)`; each weight
  array's bits as floats; each weight array's column popcounts, `Σₖ m k o`, as one row (a sum from 0 over the first axis,
  then a leading unit axis); each threshold vector's integers as floats, as one row; and the 24 × 3 table with `2^(7 − j % 8)`
  at `(j, ch)` when `j / 8 = ch` and 0 elsewhere. Each lemma reads one of those arrays at an index.
-/
import proofs.«112060_j11020886082300_1_alg».proof.Proof.Gen.KernelIdeal.Frame
import proofs.«112060_j11020886082300_1_alg».proof.Proof.Spec
import proofs.«112060_j11020886082300_1_alg».proof.Proof.Consts
import Idealize.ShloMosaic.Lib.ValueIdx
import Idealize.ShloMosaic.Lib.ValueLayout
import Idealize.ShloMosaic.Lib.Pipeline.Value
import Idealize.ShloMosaic.Lib.StableHlo.Run
import Idealize.ShloMosaic.PureOps.Ideal.Laws

noncomputable section

open scoped BigOperators

namespace Cert.KernelIdeal.Host

open Idealize.ShloMosaic Idealize.ShloMosaic.TcCoe Idealize.ShloMosaic.ValueIdx Idealize.SL.Sem
open Cert.KernelIdeal Cert.KernelIdeal.Gen Cert.Spec

variable (m : (ℓ : Loc nD τ sig) → Buf (Elt Ideal) ℓ) (c : Dev nD)

/-! ## Reading the host operations' terms at an index -/

/-- A bit made a float and then narrowed reads, at an index, as the real number 0 or 1 of that bit: the conversion is
    the bit's value exactly, and narrowing does nothing to an extended real. -/
private theorem bit_read {s : Shape} (x : IVec s 1) (h : FTy.bits .bf16 < FTy.bits .f32) (i : s.Idx) :
    (truncf .bf16 (uitofp (F := Ideal) .f32 x) h : FVec Ideal s .bf16) i = bitVal (x i) := rfl

/-- The image with its channel axis moved last and its pixels flattened: row `n`, column `ch` is the image at
    `(ch, n / 256, n % 256)`. The flattening keeps the row-major position, `(n / 256 · 256 + n % 256) · 3 + ch = n · 3 + ch`;
    the permutation `[1, 2, 0]` puts source axes 1, 2, 0 at result axes 0, 1, 2. -/
private theorem image_read (x : S3x256x256.Idx → EReal) (n : Fin 65536) (ch : Fin 3) :
    shapeCast S65536x3 (transpose S256x256x3 [1, 2, 0] x transposes_S3x256x256_S256x256x3_1_2_0)
        shapeCasts_S256x256x3_S65536x3 (ix2 n ch)
      = x (ix3 ch (pixRow n) (pixCol n)) := by
  generalize hy : transpose S256x256x3 [1, 2, 0] x transposes_S3x256x256_S256x256x3_1_2_0 = y
  rw [shapeCast_apply y shapeCasts_S256x256x3_S65536x3 (ix2 n ch) (ix3 (pixRow n) (pixCol n) ch) (by
    rewrite [Shape.rowMajor_val_three, Shape.rowMajor_val_two]
    show (n.val / 256 * 256 + n.val % 256) * 3 + ch.val = n.val * 3 + ch.val
    omega)]
  subst hy
  exact transpose_apply [1, 2, 0] x transposes_S3x256x256_S256x256x3_1_2_0
    (ix3 (pixRow n) (pixCol n) ch) (ix3 ch (pixRow n) (pixCol n)) (fun b => match b with
      | ⟨0, _⟩ => rfl
      | ⟨1, _⟩ => rfl
      | ⟨2, _⟩ => rfl)

/-- A `K × O` array of bits, made floats, summed from 0 over its first axis and given a leading unit axis, reads at
    `(0, o)` the sum over `k` of the bits of column `o`: the unit axis is read through, the sum over one axis is the
    initial value plus the sum over that axis's coordinates, and the initial value is the float 0. -/
private theorem colsum_read {K O : ℕ} (x : IVec ⟨2, ![K, O]⟩ 1)
    (h' : (⟨2, ![K, O]⟩ : Shape).ReducesTo [0] ⟨1, ![O]⟩) (h : (⟨2, ![K, O]⟩ : Shape).Reduces [0] ⟨1, ![O]⟩)
    (hu : 0 < S_.numel) (hb : (⟨1, ![O]⟩ : Shape).BroadcastsInDim ⟨2, ![1, O]⟩ ![1]) (hO : O ≠ 1) (o : Fin O) :
    broadcastInDim ⟨2, ![1, O]⟩ ![1] hb
        (Host.reduceAdd (uitofp (F := Ideal) .f32 x) (constant (F := Ideal) S_ .f32 0x00000000#32) h' hu)
        (ix2 (0 : Fin 1) o)
      = ∑ k : Fin K, bitVal (x (ix2 k o)) := by
  generalize hy : Host.reduceAdd (uitofp (F := Ideal) .f32 x) (constant (F := Ideal) S_ .f32 0x00000000#32) h' hu = y
  rw [broadcastInDim_apply ![1] hb y (ix2 (0 : Fin 1) o) (ix1 o) (fun a => match a with
    | ⟨0, _⟩ => by show o.val = if O = 1 then 0 else o.val; rw [if_neg hO])]
  subst hy
  show Ideal.hostReduceAdd h' (uitofp (F := Ideal) .f32 x)
      (constant (F := Ideal) S_ .f32 0x00000000#32 (Shape.Idx.first hu)) (ix1 o) = _
  rw [Ideal.hostReduceAdd_single h' h, constant_apply, Cert.Consts.ofBits_zero, zero_add]
  exact Finset.sum_congr rfl fun k _ => congrArg (fun j => bitVal (x j)) (funext fun a => match a with
    | ⟨0, _⟩ => Fin.ext rfl
    | ⟨1, _⟩ => Fin.ext rfl)

/-- A vector of integers, made floats and given a leading unit axis, reads at `(0, o)` integer `o` as a real. -/
private theorem thr_read {n : ℕ} (x : IVec ⟨1, ![n]⟩ 32) (h : (⟨1, ![n]⟩ : Shape).ShapeCasts ⟨2, ![1, n]⟩) (o : Fin n) :
    shapeCast ⟨2, ![1, n]⟩ (sitofp (F := Ideal) .f32 x) h (ix2 (0 : Fin 1) o) = (((x (ix1 o)).toInt : ℝ) : EReal) :=
  (shapeCast_a_1a_apply (sitofp (F := Ideal) .f32 x) h 0 o).trans rfl

/-! ## The table of powers of two -/

/-- The float patterns of 4, 8, 32, 64 and 128 (those of 0, 1, 2 and 16 are stated with the other literals). -/
private theorem ofBits_4 : Ideal.ofBits .f32 0x40800000#32 = ((4 : ℝ) : EReal) := by
  simp [Ideal.ofBits, Ideal.ieee, -EReal.coe_mul]; norm_num
private theorem ofBits_8 : Ideal.ofBits .f32 0x41000000#32 = ((8 : ℝ) : EReal) := by
  simp [Ideal.ofBits, Ideal.ieee, -EReal.coe_mul]; norm_num
private theorem ofBits_32 : Ideal.ofBits .f32 0x42000000#32 = ((32 : ℝ) : EReal) := by
  simp [Ideal.ofBits, Ideal.ieee, -EReal.coe_mul]; norm_num
private theorem ofBits_64 : Ideal.ofBits .f32 0x42800000#32 = ((64 : ℝ) : EReal) := by
  simp [Ideal.ofBits, Ideal.ieee, -EReal.coe_mul]; norm_num
private theorem ofBits_128 : Ideal.ofBits .f32 0x43000000#32 = ((128 : ℝ) : EReal) := by
  simp [Ideal.ofBits, Ideal.ieee, -EReal.coe_mul]; norm_num

/-- The float pattern of `2^(7 − r)`, for `r` below 8. -/
private def powBits : ℕ → BitVec 32
  | 0 => 0x43000000#32 | 1 => 0x42800000#32 | 2 => 0x42000000#32 | 3 => 0x41800000#32
  | 4 => 0x41000000#32 | 5 => 0x40800000#32 | 6 => 0x40000000#32 | _ => 0x3F800000#32

/-- Each of those eight patterns denotes its power of two. -/
private theorem powBits_val (r : ℕ) (hr : r < 8) : Ideal.ofBits .f32 (powBits r) = (((2 : ℝ) ^ (7 - r) : ℝ) : EReal) := by
  interval_cases r
  · exact ofBits_128.trans (by norm_num)
  · exact ofBits_64.trans (by norm_num)
  · exact ofBits_32.trans (by norm_num)
  · exact Cert.Consts.ofBits_16.trans (by norm_num)
  · exact ofBits_8.trans (by norm_num)
  · exact ofBits_4.trans (by norm_num)
  · exact Cert.Consts.ofBits_two.trans (by norm_num)
  · exact Cert.Consts.ofBits_one.trans (by norm_num)

/-- The literal table, entry by entry: at row-major position `3 · j + ch` stands the pattern of `2^(7 − j % 8)` when
    `j / 8 = ch`, and the pattern of 0 elsewhere. Seventy-two entries, each compared. -/
private theorem lit0_entry : ∀ (j : Fin 24) (ch : Fin 3),
    lit0 ⟨3 * j.val + ch.val, by omega⟩ = if j.val / 8 = ch.val then powBits (j.val % 8) else 0x00000000#32 := by
  intro j ch
  fin_cases j <;> fin_cases ch <;> rfl

/-- Position `(j, ch)` of a 24 × 3 array is row-major position `3 · j + ch`. -/
private theorem rowMajor_24x3 (j : Fin 24) (ch : Fin 3) :
    S24x3.rowMajor (ix2 j ch) = (⟨3 * j.val + ch.val, by omega⟩ : Fin 72) :=
  Fin.ext (by rw [Shape.rowMajor_val_two]; show j.val * 3 + ch.val = 3 * j.val + ch.val; omega)

/-! ## The twelve arrays -/

/-- The position floats are the position bits read as 0 and 1. -/
theorem posf (i : S65536x16.Idx) :
    (Gen.V m c main_v39 : S65536x16.Idx → EReal) i = bitVal ((Gen.V m c main_v37 : S65536x16.Idx → BitVec 1) i) := by
  have e : (Gen.V m c main_v39 : S65536x16.Idx → EReal)
      = truncf .bf16 (uitofp (F := Ideal) .f32 (Gen.V m c main_v37 : S65536x16.Idx → BitVec 1)) bitsLt_bf16_f32 := by
    show StableHlo.after hostOps0 (fun b => m (c, b)) (Proc.devRef .tc main_v39)
      = truncf .bf16 (uitofp (F := Ideal) .f32
          (StableHlo.after hostOps0 (fun b => m (c, b)) (Proc.devRef .tc main_v37))) bitsLt_bf16_f32
    after_results_simp <;> rfl
  rw [e]
  exact bit_read _ _ _

/-- The image, channels last, one pixel per row. -/
theorem imageRows (n : Fin 65536) (ch : Fin 3) :
    (Gen.V m c main_v41 : S65536x3.Idx → EReal) (ix2 n ch)
      = (m ((c.tc : Thread nD τ).loc main_arg0) : S3x256x256.Idx → EReal) (ix3 ch (pixRow n) (pixCol n)) := by
  have e : (Gen.V m c main_v41 : S65536x3.Idx → EReal)
      = shapeCast S65536x3 (transpose S256x256x3 [1, 2, 0]
          (m ((c.tc : Thread nD τ).loc main_arg0) : S3x256x256.Idx → EReal) transposes_S3x256x256_S256x256x3_1_2_0)
          shapeCasts_S256x256x3_S65536x3 := by
    show StableHlo.after hostOps0 (fun b => m (c, b)) (Proc.devRef .tc main_v41) = _
    after_results <;> rfl
  rw [e]
  exact image_read _ n ch

/-- The three weight arrays as floats. -/
theorem mask0f (k : Fin 16) (o : Fin 1024) :
    (Gen.V m c main_v43 : S16x1024.Idx → EReal) (ix2 k o) = bitVal ((m ((c.tc : Thread nD τ).loc main_arg1) : S16x1024.Idx → BitVec 1) (ix2 k o)) := by
  have e : (Gen.V m c main_v43 : S16x1024.Idx → EReal)
      = truncf .bf16 (uitofp (F := Ideal) .f32 (m ((c.tc : Thread nD τ).loc main_arg1))) bitsLt_bf16_f32 := by
    show StableHlo.after hostOps0 (fun b => m (c, b)) (Proc.devRef .tc main_v43) = _
    after_results <;> rfl
  rw [e]
  exact bit_read _ _ _
theorem mask1f (k : Fin 1024) (o : Fin 1024) :
    (Gen.V m c main_v45 : S1024x1024.Idx → EReal) (ix2 k o) = bitVal ((m ((c.tc : Thread nD τ).loc main_arg3) : S1024x1024.Idx → BitVec 1) (ix2 k o)) := by
  have e : (Gen.V m c main_v45 : S1024x1024.Idx → EReal)
      = truncf .bf16 (uitofp (F := Ideal) .f32 (m ((c.tc : Thread nD τ).loc main_arg3))) bitsLt_bf16_f32 := by
    show StableHlo.after hostOps0 (fun b => m (c, b)) (Proc.devRef .tc main_v45) = _
    after_results <;> rfl
  rw [e]
  exact bit_read _ _ _
theorem mask2f (k : Fin 1024) (o : Fin 24) :
    (Gen.V m c main_v47 : S1024x24.Idx → EReal) (ix2 k o) = bitVal ((m ((c.tc : Thread nD τ).loc main_arg5) : S1024x24.Idx → BitVec 1) (ix2 k o)) := by
  have e : (Gen.V m c main_v47 : S1024x24.Idx → EReal)
      = truncf .bf16 (uitofp (F := Ideal) .f32 (m ((c.tc : Thread nD τ).loc main_arg5))) bitsLt_bf16_f32 := by
    show StableHlo.after hostOps0 (fun b => m (c, b)) (Proc.devRef .tc main_v47) = _
    after_results <;> rfl
  rw [e]
  exact bit_read _ _ _

/-- Their column popcounts, as rows. -/
theorem colsum0 (o : Fin 1024) :
    (Gen.V m c main_v50 : S1x1024.Idx → EReal) (ix2 (0 : Fin 1) o)
      = ∑ k : Fin 16, bitVal ((m ((c.tc : Thread nD τ).loc main_arg1) : S16x1024.Idx → BitVec 1) (ix2 k o)) := by
  have e : (Gen.V m c main_v50 : S1x1024.Idx → EReal)
      = broadcastInDim S1x1024 ![1] bcast_S1024_S1x1024_1
          (Host.reduceAdd (uitofp (F := Ideal) .f32 (m ((c.tc : Thread nD τ).loc main_arg1) : S16x1024.Idx → BitVec 1))
            (constant (F := Ideal) S_ .f32 0x00000000#32) reducesTo_S16x1024_S1024_d0 h_S_) := by
    show StableHlo.after hostOps0 (fun b => m (c, b)) (Proc.devRef .tc main_v50) = _
    after_results <;> rfl
  rw [e]
  exact colsum_read _ reducesTo_S16x1024_S1024_d0 (by decide) h_S_ bcast_S1024_S1x1024_1 (by decide) o
theorem colsum1 (o : Fin 1024) :
    (Gen.V m c main_v53 : S1x1024.Idx → EReal) (ix2 (0 : Fin 1) o)
      = ∑ k : Fin 1024, bitVal ((m ((c.tc : Thread nD τ).loc main_arg3) : S1024x1024.Idx → BitVec 1) (ix2 k o)) := by
  have e : (Gen.V m c main_v53 : S1x1024.Idx → EReal)
      = broadcastInDim S1x1024 ![1] bcast_S1024_S1x1024_1
          (Host.reduceAdd (uitofp (F := Ideal) .f32 (m ((c.tc : Thread nD τ).loc main_arg3) : S1024x1024.Idx → BitVec 1))
            (constant (F := Ideal) S_ .f32 0x00000000#32) reducesTo_S1024x1024_S1024_d0 h_S_) := by
    show StableHlo.after hostOps0 (fun b => m (c, b)) (Proc.devRef .tc main_v53) = _
    after_results <;> rfl
  rw [e]
  exact colsum_read _ reducesTo_S1024x1024_S1024_d0 (by decide) h_S_ bcast_S1024_S1x1024_1 (by decide) o
theorem colsum2 (o : Fin 24) :
    (Gen.V m c main_v56 : S1x24.Idx → EReal) (ix2 (0 : Fin 1) o)
      = ∑ k : Fin 1024, bitVal ((m ((c.tc : Thread nD τ).loc main_arg5) : S1024x24.Idx → BitVec 1) (ix2 k o)) := by
  have e : (Gen.V m c main_v56 : S1x24.Idx → EReal)
      = broadcastInDim S1x24 ![1] bcast_S24_S1x24_1
          (Host.reduceAdd (uitofp (F := Ideal) .f32 (m ((c.tc : Thread nD τ).loc main_arg5) : S1024x24.Idx → BitVec 1))
            (constant (F := Ideal) S_ .f32 0x00000000#32) reducesTo_S1024x24_S24_d0 h_S_) := by
    show StableHlo.after hostOps0 (fun b => m (c, b)) (Proc.devRef .tc main_v56) = _
    after_results <;> rfl
  rw [e]
  exact colsum_read _ reducesTo_S1024x24_S24_d0 (by decide) h_S_ bcast_S24_S1x24_1 (by decide) o

/-- The thresholds as floats, as rows. -/
theorem thr0f (o : Fin 1024) :
    (Gen.V m c main_v58 : S1x1024.Idx → EReal) (ix2 (0 : Fin 1) o)
      = ((((m ((c.tc : Thread nD τ).loc main_arg2) : S1024.Idx → BitVec 32) (ix1 o)).toInt : ℝ) : EReal) := by
  have e : (Gen.V m c main_v58 : S1x1024.Idx → EReal)
      = shapeCast S1x1024 (sitofp (F := Ideal) .f32 (m ((c.tc : Thread nD τ).loc main_arg2) : S1024.Idx → BitVec 32))
          shapeCasts_S1024_S1x1024 := by
    show StableHlo.after hostOps0 (fun b => m (c, b)) (Proc.devRef .tc main_v58) = _
    after_results <;> rfl
  rw [e]
  exact thr_read _ shapeCasts_S1024_S1x1024 o
theorem thr1f (o : Fin 1024) :
    (Gen.V m c main_v60 : S1x1024.Idx → EReal) (ix2 (0 : Fin 1) o)
      = ((((m ((c.tc : Thread nD τ).loc main_arg4) : S1024.Idx → BitVec 32) (ix1 o)).toInt : ℝ) : EReal) := by
  have e : (Gen.V m c main_v60 : S1x1024.Idx → EReal)
      = shapeCast S1x1024 (sitofp (F := Ideal) .f32 (m ((c.tc : Thread nD τ).loc main_arg4) : S1024.Idx → BitVec 32))
          shapeCasts_S1024_S1x1024 := by
    show StableHlo.after hostOps0 (fun b => m (c, b)) (Proc.devRef .tc main_v60) = _
    after_results <;> rfl
  rw [e]
  exact thr_read _ shapeCasts_S1024_S1x1024 o
theorem thr2f (o : Fin 24) :
    (Gen.V m c main_v62 : S1x24.Idx → EReal) (ix2 (0 : Fin 1) o)
      = ((((m ((c.tc : Thread nD τ).loc main_arg6) : S24.Idx → BitVec 32) (ix1 o)).toInt : ℝ) : EReal) := by
  have e : (Gen.V m c main_v62 : S1x24.Idx → EReal)
      = shapeCast S1x24 (sitofp (F := Ideal) .f32 (m ((c.tc : Thread nD τ).loc main_arg6) : S24.Idx → BitVec 32))
          shapeCasts_S24_S1x24 := by
    show StableHlo.after hostOps0 (fun b => m (c, b)) (Proc.devRef .tc main_v62) = _
    after_results <;> rfl
  rw [e]
  exact thr_read _ shapeCasts_S24_S1x24 o

/-- The powers of two, byte by byte. -/
theorem weights (j : Fin 24) (ch : Fin 3) :
    (Gen.V m c main_v63 : S24x3.Idx → EReal) (ix2 j ch)
      = if j.val / 8 = ch.val then (((2 : ℝ) ^ (7 - j.val % 8) : ℝ) : EReal) else 0 := by
  have e : (Gen.V m c main_v63 : S24x3.Idx → EReal)
      = truncf .bf16 (fun i : S24x3.Idx => FloatOps.ofBits (F := Ideal) .f32 (lit0 (S24x3.rowMajor i))) bitsLt_bf16_f32 := by
    show StableHlo.after hostOps0 (fun b => m (c, b)) (Proc.devRef .tc main_v63) = _
    after_results <;> rfl
  rw [e]
  show Ideal.ofBits .f32 (lit0 (S24x3.rowMajor (ix2 j ch))) = _
  rw [rowMajor_24x3, lit0_entry]
  by_cases hj : j.val / 8 = ch.val
  · rw [if_pos hj, if_pos hj]
    exact powBits_val _ (Nat.mod_lt _ (by norm_num))
  · rw [if_neg hj, if_neg hj]
    exact Cert.Consts.ofBits_zero

end Cert.KernelIdeal.Host

end
-- ==== Proof.KerArrays.lean ====
/-
  What the kernel's program leaves in its two results.

  Before the region the program builds, from its arguments: the position bits as floats; the image with channels last,
  one pixel per row; each weight array as floats; each weight array's column popcounts as a row; each threshold vector as
  a row of floats; the 24 × 3 table of powers of two (Proof/KerHost.lean). The region walks 128 blocks of 512 pixels:
  block `t` reads rows `512·t, …, 512·t + 511` of the position floats and of the image, and all of every other array, and
  writes the same rows of two 65536 × 3 arrays. By the body's row lemma (Proof/KerLayers.lean), row `p` of block `t` is
  pixel `512·t + p`: what point `t` writes back is block `t` of the bytes, and of the bytes minus the image. Row `r` lies
  in block `r / 512`, so the 128 blocks cover both arrays, which therefore hold those two functions pixel by pixel. After
  the region each is regrouped as 256 × 256 × 3, pixel `256·h + w` going to `(h, w)`, and transposed to channels first.
-/
import proofs.«112060_j11020886082300_1_alg».proof.Proof.Gen.KernelIdeal.Frame
import proofs.«112060_j11020886082300_1_alg».proof.Proof.KerLayers
import proofs.«112060_j11020886082300_1_alg».proof.Proof.KerHost
import Idealize.ShloMosaic.Lib.ValueIdx
import Idealize.ShloMosaic.Lib.ValueLayout
import Idealize.ShloMosaic.Lib.Pipeline.Value
import Idealize.ShloMosaic.Lib.StableHlo.Run
import Idealize.ShloMosaic.PureOps.Ideal.Laws

noncomputable section

open scoped BigOperators

namespace Cert.KernelIdeal.Arrays

open Idealize.ShloMosaic Idealize.ShloMosaic.TcCoe Idealize.ShloMosaic.ValueIdx Idealize.SL.Sem
open Cert.KernelIdeal Cert.KernelIdeal.Gen Cert.Spec

variable (m : (ℓ : Loc nD τ sig) → Buf (Elt Ideal) ℓ) (ρ : Dev nD → PrngReg)

/-- The position bits as the program has built them when the region is entered. -/
abbrev posBits (c : Dev nD) : IVec ⟨2, ![65536, 16]⟩ 1 := Gen.V m c main_v37

/-! ## Where the blocks sit -/

theorem zeroOffset : (![0, 0] : Fin 2 → Nat) = fun _ => 0 := funext fun a => by fin_cases a <;> rfl

/-- The grid has 128 points. -/
theorem point_lt (t : Fin cfg0.N) : t.val < 128 := by
  have h := t.isLt
  have e : cfg0.N = 128 := N_0
  omega

/-- The four windows that move with the grid sit at block `(t, 0)` at point `t`. -/
theorem idx_moving : ∀ t : Fin cfg0.N,
      win0_0.index t (0 : Fin 2) = t.val ∧ win0_0.index t (1 : Fin 2) = 0
    ∧ win0_11.index t (0 : Fin 2) = t.val ∧ win0_11.index t (1 : Fin 2) = 0
    ∧ win0_12.index t (0 : Fin 2) = t.val ∧ win0_12.index t (1 : Fin 2) = 0
    ∧ win0_13.index t (0 : Fin 2) = t.val ∧ win0_13.index t (1 : Fin 2) = 0 :=
  (by decide +kernel : ∀ t : Fin grid0.N, _)

/-- Every other window is its whole array at every point. -/
theorem idx_resident : ∀ t : Fin cfg0.N,
      win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = 0 ∧ win0_10.index t (1 : Fin 2) = 0 :=
  (by decide +kernel : ∀ t : Fin grid0.N, _)

/-- The pixel in row `p` of block `t`. -/
def rowPix (t : Fin cfg0.N) (p : Fin 512) : Fin 65536 :=
  ⟨t.val * 512 + p.val, by have := point_lt t; have := p.isLt; omega⟩

/-! ## Block coordinates to array coordinates -/

/-- Row `p`, column `k` of the position block at point `t` is row `512·t + p` of the array. -/
theorem emb_pos (t : Fin cfg0.N) (p : Fin 512) (k : Fin 16) :
    ((cfg0.win 0).blk t).view.emb (ix2 p k) = ix2 (rowPix t p) k := by
  obtain ⟨e0, e1, -⟩ := idx_moving t
  funext a; apply Fin.ext
  match a with
  | ⟨0, _⟩ => show win0_0.index t (0 : Fin 2) * 512 + 1 * p.val = t.val * 512 + p.val; omega
  | ⟨1, _⟩ => show win0_0.index t (1 : Fin 2) * 16 + 1 * k.val = k.val; omega

/-- The same for the image block and the two result blocks, three columns wide. -/
theorem emb_img (t : Fin cfg0.N) (p : Fin 512) (q : Fin 3) :
    ((cfg0.win 11).blk t).view.emb (ix2 p q) = ix2 (rowPix t p) q := by
  obtain ⟨-, -, e0, e1, -⟩ := idx_moving t
  funext a; apply Fin.ext
  match a with
  | ⟨0, _⟩ => show win0_11.index t (0 : Fin 2) * 512 + 1 * p.val = t.val * 512 + p.val; omega
  | ⟨1, _⟩ => show win0_11.index t (1 : Fin 2) * 3 + 1 * q.val = q.val; omega

theorem emb_words (t : Fin cfg0.N) (p : Fin 512) (q : Fin 3) :
    ((cfg0.win 12).blk t).view.emb (ix2 p q) = ix2 (rowPix t p) q := by
  obtain ⟨-, -, -, -, e0, e1, -⟩ := idx_moving t
  funext a; apply Fin.ext
  match a with
  | ⟨0, _⟩ => show win0_12.index t (0 : Fin 2) * 512 + 1 * p.val = t.val * 512 + p.val; omega
  | ⟨1, _⟩ => show win0_12.index t (1 : Fin 2) * 3 + 1 * q.val = q.val; omega

theorem emb_err (t : Fin cfg0.N) (p : Fin 512) (q : Fin 3) :
    ((cfg0.win 13).blk t).view.emb (ix2 p q) = ix2 (rowPix t p) q := by
  obtain ⟨-, -, -, -, -, -, e0, e1⟩ := idx_moving t
  funext a; apply Fin.ext
  match a with
  | ⟨0, _⟩ => show win0_13.index t (0 : Fin 2) * 512 + 1 * p.val = t.val * 512 + p.val; omega
  | ⟨1, _⟩ => show win0_13.index t (1 : Fin 2) * 3 + 1 * q.val = q.val; omega

/-! ## The blocks cover the two result arrays -/

/-- An index of the words' array is in point `t`'s block iff each coordinate is in the block's range. -/
theorem mem_blk_words (t : Fin cfg0.N) (i : S65536x3.Idx) :
    i ∈ ((cfg0.win 12).blk t).view.set ↔ ∀ a : Fin 2, win0_12.index t a * S512x3.size a ≤ (i a).val ∧ (i a).val < win0_12.index t a * S512x3.size a + S512x3.size a := by
  show i ∈ ((View.whole main_v64_0).slice (win0_12.rect t)).set ↔ _
  rw [View.set_slice_whole, Rect.mem_set_unit]
  exact Iff.rfl

theorem mem_blk_err (t : Fin cfg0.N) (i : S65536x3.Idx) :
    i ∈ ((cfg0.win 13).blk t).view.set ↔ ∀ a : Fin 2, win0_13.index t a * S512x3.size a ≤ (i a).val ∧ (i a).val < win0_13.index t a * S512x3.size a + S512x3.size a := by
  show i ∈ ((View.whole main_v64_1).slice (win0_13.rect t)).set ↔ _
  rw [View.set_slice_whole, Rect.mem_set_unit]
  exact Iff.rfl

/-- The point whose block holds row `r`. -/
def pointOf (i : S65536x3.Idx) : Fin cfg0.N :=
  ⟨(i 0).val / 512, by have h : (i 0).val < 65536 := (i 0).isLt; have e : cfg0.N = 128 := N_0; omega⟩

/-- Row `r` is in block `r / 512`: every index of the words' array is in some point's block. -/
theorem cover_words (i : S65536x3.Idx) :
    ∃ t : Fin cfg0.N, (cfg0.win 12).flush t = true ∧ i ∈ ((cfg0.win 12).blk t).view.set := by
  have h0 : (i 0).val < 65536 := (i 0).isLt
  have h1 : (i 1).val < 3 := (i 1).isLt
  refine ⟨pointOf i, flush0_12 _, ?_⟩
  obtain ⟨-, -, -, -, e0, e1, -⟩ := idx_moving (pointOf i)
  have ev : (pointOf i).val = (i 0).val / 512 := rfl
  rw [mem_blk_words]
  intro a
  match a with
  | ⟨0, _⟩ => show win0_12.index (pointOf i) (0 : Fin 2) * 512 ≤ (i 0).val ∧ (i 0).val < win0_12.index (pointOf i) (0 : Fin 2) * 512 + 512; omega
  | ⟨1, _⟩ => show win0_12.index (pointOf i) (1 : Fin 2) * 3 ≤ (i 1).val ∧ (i 1).val < win0_12.index (pointOf i) (1 : Fin 2) * 3 + 3; omega

theorem cover_err (i : S65536x3.Idx) :
    ∃ t : Fin cfg0.N, (cfg0.win 13).flush t = true ∧ i ∈ ((cfg0.win 13).blk t).view.set := by
  have h0 : (i 0).val < 65536 := (i 0).isLt
  have h1 : (i 1).val < 3 := (i 1).isLt
  refine ⟨pointOf i, flush0_13 _, ?_⟩
  obtain ⟨-, -, -, -, -, -, e0, e1⟩ := idx_moving (pointOf i)
  have ev : (pointOf i).val = (i 0).val / 512 := rfl
  rw [mem_blk_err]
  intro a
  match a with
  | ⟨0, _⟩ => show win0_13.index (pointOf i) (0 : Fin 2) * 512 ≤ (i 0).val ∧ (i 0).val < win0_13.index (pointOf i) (0 : Fin 2) * 512 + 512; omega
  | ⟨1, _⟩ => show win0_13.index (pointOf i) (1 : Fin 2) * 3 ≤ (i 1).val ∧ (i 1).val < win0_13.index (pointOf i) (1 : Fin 2) * 3 + 3; omega

/-! ## The resident windows are their whole arrays -/

theorem emb_w1 (t : Fin cfg0.N) (k : Fin 16) (o : Fin 1024) :
    ((cfg0.win 1).blk t).view.emb (ix2 k o) = ix2 k o := by
  obtain ⟨e0, e1, -, -, -, -, -, -, -, -, -, -, -, -, -, -, -, -, -, -⟩ := idx_resident t
  funext a; apply Fin.ext
  match a with
  | ⟨0, _⟩ => show win0_1.index t (0 : Fin 2) * 16 + 1 * k.val = k.val; omega
  | ⟨1, _⟩ => show win0_1.index t (1 : Fin 2) * 1024 + 1 * o.val = o.val; omega

theorem emb_w2 (t : Fin cfg0.N) (k : Fin 1) (o : Fin 1024) :
    ((cfg0.win 2).blk t).view.emb (ix2 k o) = ix2 k o := by
  obtain ⟨-, -, e0, e1, -, -, -, -, -, -, -, -, -, -, -, -, -, -, -, -⟩ := idx_resident t
  funext a; apply Fin.ext
  match a with
  | ⟨0, _⟩ => show win0_2.index t (0 : Fin 2) * 1 + 1 * k.val = k.val; omega
  | ⟨1, _⟩ => show win0_2.index t (1 : Fin 2) * 1024 + 1 * o.val = o.val; omega

theorem emb_w3 (t : Fin cfg0.N) (k : Fin 1) (o : Fin 1024) :
    ((cfg0.win 3).blk t).view.emb (ix2 k o) = ix2 k o := by
  obtain ⟨-, -, -, -, e0, e1, -, -, -, -, -, -, -, -, -, -, -, -, -, -⟩ := idx_resident t
  funext a; apply Fin.ext
  match a with
  | ⟨0, _⟩ => show win0_3.index t (0 : Fin 2) * 1 + 1 * k.val = k.val; omega
  | ⟨1, _⟩ => show win0_3.index t (1 : Fin 2) * 1024 + 1 * o.val = o.val; omega

theorem emb_w4 (t : Fin cfg0.N) (k : Fin 1024) (o : Fin 1024) :
    ((cfg0.win 4).blk t).view.emb (ix2 k o) = ix2 k o := by
  obtain ⟨-, -, -, -, -, -, e0, e1, -, -, -, -, -, -, -, -, -, -, -, -⟩ := idx_resident t
  funext a; apply Fin.ext
  match a with
  | ⟨0, _⟩ => show win0_4.index t (0 : Fin 2) * 1024 + 1 * k.val = k.val; omega
  | ⟨1, _⟩ => show win0_4.index t (1 : Fin 2) * 1024 + 1 * o.val = o.val; omega

theorem emb_w5 (t : Fin cfg0.N) (k : Fin 1) (o : Fin 1024) :
    ((cfg0.win 5).blk t).view.emb (ix2 k o) = ix2 k o := by
  obtain ⟨-, -, -, -, -, -, -, -, e0, e1, -, -, -, -, -, -, -, -, -, -⟩ := idx_resident t
  funext a; apply Fin.ext
  match a with
  | ⟨0, _⟩ => show win0_5.index t (0 : Fin 2) * 1 + 1 * k.val = k.val; omega
  | ⟨1, _⟩ => show win0_5.index t (1 : Fin 2) * 1024 + 1 * o.val = o.val; omega

theorem emb_w6 (t : Fin cfg0.N) (k : Fin 1) (o : Fin 1024) :
    ((cfg0.win 6).blk t).view.emb (ix2 k o) = ix2 k o := by
  obtain ⟨-, -, -, -, -, -, -, -, -, -, e0, e1, -, -, -, -, -, -, -, -⟩ := idx_resident t
  funext a; apply Fin.ext
  match a with
  | ⟨0, _⟩ => show win0_6.index t (0 : Fin 2) * 1 + 1 * k.val = k.val; omega
  | ⟨1, _⟩ => show win0_6.index t (1 : Fin 2) * 1024 + 1 * o.val = o.val; omega

theorem emb_w7 (t : Fin cfg0.N) (k : Fin 1024) (o : Fin 24) :
    ((cfg0.win 7).blk t).view.emb (ix2 k o) = ix2 k o := by
  obtain ⟨-, -, -, -, -, -, -, -, -, -, -, -, e0, e1, -, -, -, -, -, -⟩ := idx_resident t
  funext a; apply Fin.ext
  match a with
  | ⟨0, _⟩ => show win0_7.index t (0 : Fin 2) * 1024 + 1 * k.val = k.val; omega
  | ⟨1, _⟩ => show win0_7.index t (1 : Fin 2) * 24 + 1 * o.val = o.val; omega

theorem emb_w8 (t : Fin cfg0.N) (k : Fin 1) (o : Fin 24) :
    ((cfg0.win 8).blk t).view.emb (ix2 k o) = ix2 k o := by
  obtain ⟨-, -, -, -, -, -, -, -, -, -, -, -, -, -, e0, e1, -, -, -, -⟩ := idx_resident t
  funext a; apply Fin.ext
  match a with
  | ⟨0, _⟩ => show win0_8.index t (0 : Fin 2) * 1 + 1 * k.val = k.val; omega
  | ⟨1, _⟩ => show win0_8.index t (1 : Fin 2) * 24 + 1 * o.val = o.val; omega

theorem emb_w9 (t : Fin cfg0.N) (k : Fin 1) (o : Fin 24) :
    ((cfg0.win 9).blk t).view.emb (ix2 k o) = ix2 k o := by
  obtain ⟨-, -, -, -, -, -, -, -, -, -, -, -, -, -, -, -, e0, e1, -, -⟩ := idx_resident t
  funext a; apply Fin.ext
  match a with
  | ⟨0, _⟩ => show win0_9.index t (0 : Fin 2) * 1 + 1 * k.val = k.val; omega
  | ⟨1, _⟩ => show win0_9.index t (1 : Fin 2) * 24 + 1 * o.val = o.val; omega

theorem emb_w10 (t : Fin cfg0.N) (k : Fin 24) (o : Fin 3) :
    ((cfg0.win 10).blk t).view.emb (ix2 k o) = ix2 k o := by
  obtain ⟨-, -, -, -, -, -, -, -, -, -, -, -, -, -, -, -, -, -, e0, e1⟩ := idx_resident t
  funext a; apply Fin.ext
  match a with
  | ⟨0, _⟩ => show win0_10.index t (0 : Fin 2) * 24 + 1 * k.val = k.val; omega
  | ⟨1, _⟩ => show win0_10.index t (1 : Fin 2) * 3 + 1 * o.val = o.val; omega

/-! ## What each block holds -/

section Blocks

variable (c : Dev nD) (t : Fin cfg0.N)

theorem blk_pos (p : Fin 512) (k : Fin 16) :
    (iblk m c 0 t : S512x16.Idx → EReal) (ix2 p k) = bitVal (posBits m c (ix2 (rowPix t p) k)) := by
  show (Gen.V m c main_v39 : S65536x16.Idx → EReal) (((cfg0.win 0).blk t).view.emb (ix2 p k)) = _
  rw [emb_pos]
  exact Host.posf m c _

theorem blk_img (p : Fin 512) (q : Fin 3) :
    (iblk m c 11 t : S512x3.Idx → EReal) (ix2 p q)
      = ((m ((c.tc : Thread nD τ).loc main_arg0)) : S3x256x256.Idx → EReal) (ix3 q (pixRow (rowPix t p)) (pixCol (rowPix t p))) := by
  show (Gen.V m c main_v41 : S65536x3.Idx → EReal) (((cfg0.win 11).blk t).view.emb (ix2 p q)) = _
  rw [emb_img]
  exact Host.imageRows m c _ _

theorem blk_mask0 (k : Fin 16) (o : Fin 1024) :
    (iblk m c 1 t : S16x1024.Idx → EReal) (ix2 k o) = bitVal (((m ((c.tc : Thread nD τ).loc main_arg1)) : S16x1024.Idx → BitVec 1) (ix2 k o)) := by
  show (Gen.V m c main_v43 : S16x1024.Idx → EReal) (((cfg0.win 1).blk t).view.emb (ix2 k o)) = _
  rw [emb_w1]; exact Host.mask0f m c k o

theorem blk_cs0 (o : Fin 1024) :
    (iblk m c 2 t : S1x1024.Idx → EReal) (ix2 (0 : Fin 1) o) = ∑ k : Fin 16, bitVal (((m ((c.tc : Thread nD τ).loc main_arg1)) : S16x1024.Idx → BitVec 1) (ix2 k o)) := by
  show (Gen.V m c main_v50 : S1x1024.Idx → EReal) (((cfg0.win 2).blk t).view.emb (ix2 (0 : Fin 1) o)) = _
  rw [emb_w2]; exact Host.colsum0 m c o

theorem blk_th0 (o : Fin 1024) :
    (iblk m c 3 t : S1x1024.Idx → EReal) (ix2 (0 : Fin 1) o) = (((((m ((c.tc : Thread nD τ).loc main_arg2)) : S1024.Idx → BitVec 32) (ix1 o)).toInt : ℝ) : EReal) := by
  show (Gen.V m c main_v58 : S1x1024.Idx → EReal) (((cfg0.win 3).blk t).view.emb (ix2 (0 : Fin 1) o)) = _
  rw [emb_w3]; exact Host.thr0f m c o

theorem blk_mask1 (k : Fin 1024) (o : Fin 1024) :
    (iblk m c 4 t : S1024x1024.Idx → EReal) (ix2 k o) = bitVal (((m ((c.tc : Thread nD τ).loc main_arg3)) : S1024x1024.Idx → BitVec 1) (ix2 k o)) := by
  show (Gen.V m c main_v45 : S1024x1024.Idx → EReal) (((cfg0.win 4).blk t).view.emb (ix2 k o)) = _
  rw [emb_w4]; exact Host.mask1f m c k o

theorem blk_cs1 (o : Fin 1024) :
    (iblk m c 5 t : S1x1024.Idx → EReal) (ix2 (0 : Fin 1) o) = ∑ k : Fin 1024, bitVal (((m ((c.tc : Thread nD τ).loc main_arg3)) : S1024x1024.Idx → BitVec 1) (ix2 k o)) := by
  show (Gen.V m c main_v53 : S1x1024.Idx → EReal) (((cfg0.win 5).blk t).view.emb (ix2 (0 : Fin 1) o)) = _
  rw [emb_w5]; exact Host.colsum1 m c o

theorem blk_th1 (o : Fin 1024) :
    (iblk m c 6 t : S1x1024.Idx → EReal) (ix2 (0 : Fin 1) o) = (((((m ((c.tc : Thread nD τ).loc main_arg4)) : S1024.Idx → BitVec 32) (ix1 o)).toInt : ℝ) : EReal) := by
  show (Gen.V m c main_v60 : S1x1024.Idx → EReal) (((cfg0.win 6).blk t).view.emb (ix2 (0 : Fin 1) o)) = _
  rw [emb_w6]; exact Host.thr1f m c o

theorem blk_mask2 (k : Fin 1024) (o : Fin 24) :
    (iblk m c 7 t : S1024x24.Idx → EReal) (ix2 k o) = bitVal (((m ((c.tc : Thread nD τ).loc main_arg5)) : S1024x24.Idx → BitVec 1) (ix2 k o)) := by
  show (Gen.V m c main_v47 : S1024x24.Idx → EReal) (((cfg0.win 7).blk t).view.emb (ix2 k o)) = _
  rw [emb_w7]; exact Host.mask2f m c k o

theorem blk_cs2 (o : Fin 24) :
    (iblk m c 8 t : S1x24.Idx → EReal) (ix2 (0 : Fin 1) o) = ∑ k : Fin 1024, bitVal (((m ((c.tc : Thread nD τ).loc main_arg5)) : S1024x24.Idx → BitVec 1) (ix2 k o)) := by
  show (Gen.V m c main_v56 : S1x24.Idx → EReal) (((cfg0.win 8).blk t).view.emb (ix2 (0 : Fin 1) o)) = _
  rw [emb_w8]; exact Host.colsum2 m c o

theorem blk_th2 (o : Fin 24) :
    (iblk m c 9 t : S1x24.Idx → EReal) (ix2 (0 : Fin 1) o) = (((((m ((c.tc : Thread nD τ).loc main_arg6)) : S24.Idx → BitVec 32) (ix1 o)).toInt : ℝ) : EReal) := by
  show (Gen.V m c main_v62 : S1x24.Idx → EReal) (((cfg0.win 9).blk t).view.emb (ix2 (0 : Fin 1) o)) = _
  rw [emb_w9]; exact Host.thr2f m c o

theorem blk_wt (j : Fin 24) (ch : Fin 3) :
    (iblk m c 10 t : S24x3.Idx → EReal) (ix2 j ch)
      = if j.val / 8 = ch.val then (((2 : ℝ) ^ (7 - j.val % 8) : ℝ) : EReal) else 0 := by
  show (Gen.V m c main_v63 : S24x3.Idx → EReal) (((cfg0.win 10).blk t).view.emb (ix2 j ch)) = _
  rw [emb_w10]; exact Host.weights m c j ch

end Blocks

/-! ## What a point writes back -/

/-- Point `t` writes back block `t` of the bytes. -/
theorem flushed_words (c : Dev nD) (t : Fin cfg0.N) :
    (dats m 0 c).flushed 12 t
      = ((cfg0.win 12).blk t).view.read (Elt Ideal) (wordsFlat (posBits m c) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))) := by
  show (cfg0.win 12).cut (grid0.coords t) ((dats m 0 c).after 12 t) = _
  rw [after0_12]
  unfold out0_12
  rw [View.canon_unit_zero zeroOffset]
  simp only [View.ld_unit_zero (S := S512x16) zeroOffset, View.ld_unit_zero (S := S16x1024) zeroOffset,
    View.ld_unit_zero (S := S1x1024) zeroOffset, View.ld_unit_zero (S := S1024x1024) zeroOffset,
    View.ld_unit_zero (S := S1024x24) zeroOffset, View.ld_unit_zero (S := S1x24) zeroOffset,
    View.ld_unit_zero (S := S24x3) zeroOffset, View.ld_unit_zero (S := S512x3) zeroOffset]
  funext j
  obtain ⟨p, q, rfl⟩ : ∃ (p : Fin 512) (q : Fin 3), j = ix2 p q := ⟨j 0, j 1, eq_ix2 j⟩
  show k0_pay3 (F := Ideal) (k0_pay2 (F := Ideal) (iblk m c 0 t) (iblk m c 1 t) (iblk m c 2 t) (iblk m c 3 t) (iblk m c 4 t))
        (iblk m c 5 t) (iblk m c 6 t) (iblk m c 7 t) (iblk m c 8 t) (iblk m c 9 t) (iblk m c 10 t) (ix2 p q)
      = wordsFlat (posBits m c) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (((cfg0.win 12).blk t).view.emb (ix2 p q))
  rw [emb_words]
  exact Layers.words_at (pos := posBits m c) (mask0 := (m ((c.tc : Thread nD τ).loc main_arg1))) (thr0 := (m ((c.tc : Thread nD τ).loc main_arg2))) (mask1 := (m ((c.tc : Thread nD τ).loc main_arg3))) (thr1 := (m ((c.tc : Thread nD τ).loc main_arg4)))
    (mask2 := (m ((c.tc : Thread nD τ).loc main_arg5))) (thr2 := (m ((c.tc : Thread nD τ).loc main_arg6)))
    (x0 := iblk m c 0 t) (m0 := iblk m c 1 t) (cs0 := iblk m c 2 t) (th0 := iblk m c 3 t)
    (m1 := iblk m c 4 t) (cs1 := iblk m c 5 t) (th1 := iblk m c 6 t) (m2 := iblk m c 7 t) (cs2 := iblk m c 8 t) (th2 := iblk m c 9 t)
    (wt := iblk m c 10 t) (rowPix t p) p q
    (blk_pos m c t p) (blk_mask0 m c t) (blk_cs0 m c t) (blk_th0 m c t) (blk_mask1 m c t) (blk_cs1 m c t) (blk_th1 m c t)
    (blk_mask2 m c t) (blk_cs2 m c t) (blk_th2 m c t) (blk_wt m c t)

/-- Point `t` writes back block `t` of the bytes minus the image. -/
theorem flushed_err (c : Dev nD) (t : Fin cfg0.N) :
    (dats m 0 c).flushed 13 t
      = ((cfg0.win 13).blk t).view.read (Elt Ideal) (errFlat (posBits m c) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg0))) := by
  show (cfg0.win 13).cut (grid0.coords t) ((dats m 0 c).after 13 t) = _
  rw [after0_13]
  unfold out0_13
  rw [View.canon_unit_zero zeroOffset]
  simp only [View.ld_unit_zero (S := S512x16) zeroOffset, View.ld_unit_zero (S := S16x1024) zeroOffset,
    View.ld_unit_zero (S := S1x1024) zeroOffset, View.ld_unit_zero (S := S1024x1024) zeroOffset,
    View.ld_unit_zero (S := S1024x24) zeroOffset, View.ld_unit_zero (S := S1x24) zeroOffset,
    View.ld_unit_zero (S := S24x3) zeroOffset, View.ld_unit_zero (S := S512x3) zeroOffset]
  funext j
  obtain ⟨p, q, rfl⟩ : ∃ (p : Fin 512) (q : Fin 3), j = ix2 p q := ⟨j 0, j 1, eq_ix2 j⟩
  show k0_pay1 (F := Ideal) (k0_pay4 (F := Ideal) (k0_pay2 (F := Ideal) (iblk m c 0 t) (iblk m c 1 t) (iblk m c 2 t) (iblk m c 3 t) (iblk m c 4 t))
        (iblk m c 5 t) (iblk m c 6 t) (iblk m c 7 t) (iblk m c 8 t) (iblk m c 9 t) (iblk m c 10 t)) (iblk m c 11 t) (ix2 p q)
      = errFlat (posBits m c) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg0)) (((cfg0.win 13).blk t).view.emb (ix2 p q))
  rw [emb_err]
  exact Layers.err_at (pos := posBits m c) (mask0 := (m ((c.tc : Thread nD τ).loc main_arg1))) (thr0 := (m ((c.tc : Thread nD τ).loc main_arg2))) (mask1 := (m ((c.tc : Thread nD τ).loc main_arg3))) (thr1 := (m ((c.tc : Thread nD τ).loc main_arg4)))
    (mask2 := (m ((c.tc : Thread nD τ).loc main_arg5))) (thr2 := (m ((c.tc : Thread nD τ).loc main_arg6))) (image := (m ((c.tc : Thread nD τ).loc main_arg0)))
    (x0 := iblk m c 0 t) (m0 := iblk m c 1 t) (cs0 := iblk m c 2 t) (th0 := iblk m c 3 t)
    (m1 := iblk m c 4 t) (cs1 := iblk m c 5 t) (th1 := iblk m c 6 t) (m2 := iblk m c 7 t) (cs2 := iblk m c 8 t) (th2 := iblk m c 9 t)
    (wt := iblk m c 10 t) (img := iblk m c 11 t) (rowPix t p) p q
    (blk_pos m c t p) (blk_mask0 m c t) (blk_cs0 m c t) (blk_th0 m c t) (blk_mask1 m c t) (blk_cs1 m c t) (blk_th1 m c t)
    (blk_mask2 m c t) (blk_cs2 m c t) (blk_th2 m c t) (blk_wt m c t) (blk_img m c t p q)

/-! ## The two arrays after the region -/

/-- The blocks cover the array, so it holds the bytes pixel by pixel. -/
theorem final_words (c : Dev nD) : (dats m 0 c).arrAt 12 cfg0.N = wordsFlat (posBits m c) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) :=
  (dats m 0 c).arrAt_eq_of_cover 12 _ (fun t _ => flushed_words m c t) cover_words

theorem final_err (c : Dev nD) : (dats m 0 c).arrAt 13 cfg0.N = errFlat (posBits m c) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg0)) :=
  (dats m 0 c).arrAt_eq_of_cover 13 _ (fun t _ => flushed_err m c t) cover_err

/-! ## After the region: regrouped by rows of 256 pixels, channels first -/

/-- The first result: the bytes' array regrouped as 256 × 256 × 3 and transposed, so `(ch, h, w)` reads pixel `256·h + w`,
    channel `ch`. -/
theorem tail_words (c : Dev nD) :
    Pipeline.afterTail₀ cfgs (dats m) 0 (V0 m) [hostOps1] c main_v66 = words (posBits m c) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  unfold Pipeline.afterTail₀
  show StableHlo.after hostOps1 _ (Proc.devRef .tc main_v66) = _
  after_results
  have harr : Pipeline.withArrays (cfgs 0).spec c (V0 m c) (fun w => (dats m 0 c).arrAt w (cfgs 0).N) (Proc.devRef .tc main_v64_0)
      = wordsFlat (posBits m c) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) :=
    (Pipeline.withArrays_arr spec0 launch0.win.arr_inj c _ _ 12).trans (final_words m c)
  rw [harr]
  funext j
  obtain ⟨ch, h, w, rfl⟩ : ∃ (ch : Fin 3) (h w : Fin 256), j = ix3 ch h w := ⟨j 0, j 1, j 2, eq_ix3 j⟩
  rw [transpose_apply [2, 0, 1] _ transposes_S256x256x3_S3x256x256_2_0_1 (ix3 ch h w) (ix3 h w ch) (fun b => match b with
    | ⟨0, _⟩ => rfl
    | ⟨1, _⟩ => rfl
    | ⟨2, _⟩ => rfl)]
  show shapeCast S256x256x3 (wordsFlat (posBits m c) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))) shapeCasts_S65536x3_S256x256x3 (ix3 h w ch) = _
  rw [shapeCast_apply (wordsFlat (posBits m c) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))) shapeCasts_S65536x3_S256x256x3 (ix3 h w ch) (ix2 (pixel h w) ch)
    (by rw [Shape.rowMajor_val_two, Shape.rowMajor_val_three]; rfl)]
  rfl

/-- The second result, the same way; the image entry met there is the image at `(ch, h, w)`, since pixel `256·h + w` has
    row `h` and column `w`. -/
theorem tail_err (c : Dev nD) :
    Pipeline.afterTail₀ cfgs (dats m) 0 (V0 m) [hostOps1] c main_v68 = err (posBits m c) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg0)) := by
  unfold Pipeline.afterTail₀
  show StableHlo.after hostOps1 _ (Proc.devRef .tc main_v68) = _
  after_results
  have harr : Pipeline.withArrays (cfgs 0).spec c (V0 m c) (fun w => (dats m 0 c).arrAt w (cfgs 0).N) (Proc.devRef .tc main_v64_1)
      = errFlat (posBits m c) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg0)) :=
    (Pipeline.withArrays_arr spec0 launch0.win.arr_inj c _ _ 13).trans (final_err m c)
  rw [harr]
  funext j
  obtain ⟨ch, h, w, rfl⟩ : ∃ (ch : Fin 3) (h w : Fin 256), j = ix3 ch h w := ⟨j 0, j 1, j 2, eq_ix3 j⟩
  rw [transpose_apply [2, 0, 1] _ transposes_S256x256x3_S3x256x256_2_0_1 (ix3 ch h w) (ix3 h w ch) (fun b => match b with
    | ⟨0, _⟩ => rfl
    | ⟨1, _⟩ => rfl
    | ⟨2, _⟩ => rfl)]
  show shapeCast S256x256x3 (errFlat (posBits m c) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg0))) shapeCasts_S65536x3_S256x256x3 (ix3 h w ch) = _
  rw [shapeCast_apply (errFlat (posBits m c) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg0))) shapeCasts_S65536x3_S256x256x3 (ix3 h w ch) (ix2 (pixel h w) ch)
    (by rw [Shape.rowMajor_val_two, Shape.rowMajor_val_three]; rfl)]
  have hr : pixRow (pixel h w) = h := Fin.ext (by show (h.val * 256 + w.val) / 256 = h.val; have := w.isLt; omega)
  have hc : pixCol (pixel h w) = w := Fin.ext (by show (h.val * 256 + w.val) % 256 = w.val; have := w.isLt; omega)
  show (((byteWord (posBits m c) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (pixel h w) ch).toInt : ℝ) : EReal)
      - ((m ((c.tc : Thread nD τ).loc main_arg0)) : S3x256x256.Idx → EReal) (ix3 ch (pixRow (pixel h w)) (pixCol (pixel h w))) = _
  rw [hr, hc]
  rfl

/-! ## The run -/

/-- The program runs, its first result the bytes (channels first), its second the bytes minus the image, its arguments
    unchanged. -/
theorem run : θ_run (defs (F := Ideal)) (onTc (τ := τ) (main (F := Ideal))) ⟨m, fun _ => 0, ρ⟩ (fun r => ∀ c : Dev nD,
      r.2.mem ((c.tc : Thread nD τ).loc main_v66)
        = words (posBits m c) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_v68)
        = err (posBits m c) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨((h c).2 main_v66 (Pipeline.mem_restRefs_of main_v66 (by decide) (by decide))).trans (tail_words m c),
      ((h c).2 main_v68 (Pipeline.mem_restRefs_of main_v68 (by decide) (by decide))).trans (tail_err m c),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c))⟩)
    (run_main m ρ)

end Cert.KernelIdeal.Arrays

end
-- ==== Proof.PosBits.lean ====
/-
  Both programs build the position bits by the same operations: two 256 × 8 tables of the bits of 0 … 255 (an index
  shifted right by 7, …, 0 and masked with 1, compared with 0), one broadcast along rows and one along columns, joined
  into 16 bits per pixel, and the 256 × 256 pixels flattened. Neither program's bits depend on an argument or on how
  floats are read, and the two terms are the same composition, so they are equal without being evaluated.
-/
import proofs.«112060_j11020886082300_1_alg».proof.Proof.RefRead
import proofs.«112060_j11020886082300_1_alg».proof.Proof.KerArrays
import Idealize.ShloMosaic.Lib.StableHlo.Run

noncomputable section

namespace Cert.PosBits

open Idealize.ShloMosaic Idealize.ShloMosaic.TcCoe Idealize.SL.Sem Idealize.ShloMosaic.StableHlo

set_option maxHeartbeats 4000000 in
/-- At any reading of floats: what the kernel's program holds in its flattened position-bit buffer when the region is
    entered is the reference's stage of the same name. -/
theorem chain_eq {F : FTy → Type} [FloatOps F]
    (m : (ℓ : Loc Cert.KernelIdeal.nD Cert.KernelIdeal.τ Cert.KernelIdeal.sig) → Buf (Elt F) ℓ) (c : Dev Cert.KernelIdeal.nD) :
    (Cert.KernelIdeal.Gen.V m c Cert.KernelIdeal.main_v37 : Cert.KernelIdeal.S65536x16.Idx → BitVec 1)
      = Cert.ReferenceIdeal.ReadP.val_main_v37 (F := F) := by
  show StableHlo.after Cert.KernelIdeal.Gen.hostOps0 (fun b => m (c, b)) (Proc.devRef .tc Cert.KernelIdeal.main_v37) = _
  after_results_simp
  rfl

/-- The kernel program's position bits are the reference's. -/
theorem kernel_eq_reference (m : (ℓ : Loc Cert.KernelIdeal.nD Cert.KernelIdeal.τ Cert.KernelIdeal.sig) → Buf (Elt Ideal) ℓ)
    (c : Dev Cert.KernelIdeal.nD) :
    Cert.KernelIdeal.Arrays.posBits m c = Cert.ReferenceIdeal.ReadP.val_main_v37 (F := Ideal) :=
  chain_eq m c

end Cert.PosBits

end
-- ==== Proof.lean ====
/-
  The kernel and its reference compute one function.

  The function is Proof/Spec.lean's: per pixel, 16 position bits through three layers of binary neurons, each neuron
  firing when the number of coordinates on which its input bits agree with its weight bits exceeds an integer threshold;
  the last layer's 24 bits read as three bytes; the bytes, and the bytes minus the image.

  The reference counts agreements as `Σ x·m + Σ (1 − x)(1 − m)`. The kernel counts them as `2·Σ x·m + K − Σ x − Σ m`,
  with the column popcounts `Σ m` taken once outside the kernel; the two are one number (Proof/Law.lean). The reference
  packs a byte in integer arithmetic; the kernel multiplies the bits by powers of two in floats and converts the whole
  number below 256 to an integer, which is exact. Both then subtract the image from the same word read as a real.

  Proof/RefValue.lean reads the reference's two results as the specification; Proof/KerLayers.lean and
  Proof/KerArrays.lean read the kernel's, block by block and then over the whole arrays; Proof/PosBits.lean says the two
  programs' position bits are one term. The three programs' runs terminate with their arguments unchanged: for the
  kernel at both instances by its frame, for the reference by its run.
-/
import proofs.«112060_j11020886082300_1_alg».proof.Defs
import proofs.«112060_j11020886082300_1_alg».proof.Proof.Gen.Kernel
import proofs.«112060_j11020886082300_1_alg».proof.Proof.Gen.Kernel.Skeleton
import proofs.«112060_j11020886082300_1_alg».proof.Proof.Gen.Kernel.Launch
import proofs.«112060_j11020886082300_1_alg».proof.Proof.Gen.Kernel.Points
import proofs.«112060_j11020886082300_1_alg».proof.Proof.Gen.Kernel.Frame
import proofs.«112060_j11020886082300_1_alg».proof.Proof.Gen.KernelIdeal
import proofs.«112060_j11020886082300_1_alg».proof.Proof.Gen.KernelIdeal.Skeleton
import proofs.«112060_j11020886082300_1_alg».proof.Proof.Gen.KernelIdeal.Launch
import proofs.«112060_j11020886082300_1_alg».proof.Proof.Gen.KernelIdeal.Points
import proofs.«112060_j11020886082300_1_alg».proof.Proof.Gen.KernelIdeal.Frame
import proofs.«112060_j11020886082300_1_alg».proof.Proof.Gen.ReferenceIdeal
import proofs.«112060_j11020886082300_1_alg».proof.Proof.Gen.Pre_finite_inputs
import proofs.«112060_j11020886082300_1_alg».proof.Proof.RefRun
import proofs.«112060_j11020886082300_1_alg».proof.Proof.RefRead
import proofs.«112060_j11020886082300_1_alg».proof.Proof.RefValue
import proofs.«112060_j11020886082300_1_alg».proof.Proof.KerArrays
import proofs.«112060_j11020886082300_1_alg».proof.Proof.PosBits
import Idealize.ShloMosaic.Adequacy
import Idealize.ShloMosaic.Init

noncomputable section

namespace Cert.Proof

open Idealize.ShloMosaic Idealize.SL.Sem

/-- The kernel as printed terminates with its arguments unchanged. -/
theorem frame_kernel :
    Cert.frame_Kernel (hKernel := Cert.Kernel.Gen.facts) (hPre_finite_inputs := Cert.Pre_finite_inputs.Gen.facts) :=
  fun m ρ _ => Cert.Kernel.Gen.frame m ρ

/-- So does its idealization. -/
theorem frame_kernelIdeal :
    Cert.frame_KernelIdeal (hKernelIdeal := Cert.KernelIdeal.Gen.facts) (hPre_finite_inputs := Cert.Pre_finite_inputs.Gen.facts) :=
  fun m ρ _ => Cert.KernelIdeal.Gen.frame m ρ

/-- The reference is host operations only: its run, with the two results dropped. -/
theorem frame_reference :
    Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2)
    (Cert.ReferenceIdeal.ValueP.run (F := Ideal) m ρ)

/-- From memories agreeing on the arguments both programs end with the specification's two arrays of those arguments:
    the kernel's by its run, the reference's by its run read stage by stage, the position bits being one term. -/
theorem algebraic :
    Cert.algebraic_KernelIdeal_ReferenceIdeal (hKernelIdeal := Cert.KernelIdeal.Gen.facts)
      (hReferenceIdeal := Cert.ReferenceIdeal.Gen.facts) (hPre_finite_inputs := Cert.Pre_finite_inputs.Gen.facts) := by
  intro m ρ m' ρ' _ hagree
  refine ⟨fun c => Cert.Spec.words (Cert.KernelIdeal.Arrays.posBits m c) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)),
    fun c => Cert.Spec.err (Cert.KernelIdeal.Arrays.posBits m c) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg0)),
    Cert.KernelIdeal.Arrays.run m ρ, ?_⟩
  refine (θ_run Cert.ReferenceIdeal.defs _ _).mono
    (fun _ h c => ⟨(h c).1.trans ?_, (h c).2.1.trans ?_, (h c).2.2⟩)
    (Cert.ReferenceIdeal.ValueP.run (F := Ideal) m' ρ')
  · beta_reduce
    rw [Cert.ReferenceIdeal.ReadP.val_main_v142_eq, Cert.ReferenceIdeal.RefValue.words_eq,
      (hagree c).2.1, (hagree c).2.2.1, (hagree c).2.2.2.1, (hagree c).2.2.2.2.1, (hagree c).2.2.2.2.2.1,
      (hagree c).2.2.2.2.2.2, Cert.PosBits.kernel_eq_reference m c]
  · beta_reduce
    rw [Cert.ReferenceIdeal.ReadP.val_main_v144_eq, Cert.ReferenceIdeal.RefValue.err_eq,
      (hagree c).1, (hagree c).2.1, (hagree c).2.2.1, (hagree c).2.2.2.1, (hagree c).2.2.2.2.1, (hagree c).2.2.2.2.2.1,
      (hagree c).2.2.2.2.2.2, Cert.PosBits.kernel_eq_reference m c]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
